-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S23999901 : Shape := ⟨1, ![23999901]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel

variable [Facts]

def fn {F : FTy → Type} [FloatOps F] (main_arg0 : FVec F S2000000x3 .f32) (main_arg1 : FVec F S2000000x3 .f32) (main_arg2 : IVec S23999901 32) (main_arg3 : IVec S23999901 32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  main_v8
-- ==== Kernel.lean ====
abbrev S2000000x3 : Shape := ⟨2, ![2000000, 3]⟩
abbrev S23999901 : Shape := ⟨1, ![23999901]⟩
abbrev S_ : Shape := ⟨0, ![]⟩
abbrev S2000000x6 : Shape := ⟨2, ![2000000, 6]⟩
abbrev S2000000x8 : Shape := ⟨2, ![2000000, 8]⟩
abbrev S24018944 : Shape := ⟨1, ![24018944]⟩
abbrev S24018944x1 : Shape := ⟨2, ![24018944, 1]⟩
abbrev S24018944x8 : Shape := ⟨2, ![24018944, 8]⟩
abbrev S2x8x128 : Shape := ⟨3, ![2, 8, 128]⟩
abbrev S16384x8 : Shape := ⟨2, ![16384, 8]⟩
abbrev S1x8x128 : Shape := ⟨3, ![1, 8, 128]⟩
abbrev S8x128 : Shape := ⟨2, ![8, 128]⟩
abbrev S16384x3 : Shape := ⟨2, ![16384, 3]⟩
abbrev S16384 : Shape := ⟨1, ![16384]⟩
abbrev S16384x1 : Shape := ⟨2, ![16384, 1]⟩
abbrev S1 : Shape := ⟨1, ![1]⟩
abbrev S1x1 : Shape := ⟨2, ![1, 1]⟩
abbrev S2x1x1 : Shape := ⟨3, ![2, 1, 1]⟩
abbrev S2 : Shape := ⟨1, ![2]⟩

abbrev nBuf : Space → Nat
  | .hbm => 45
  | .vmem => 7
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S23999901, .i32⟩
  | .hbm, ⟨3, _⟩ => ⟨S23999901, .i32⟩
  | .hbm, ⟨4, _⟩ => ⟨S_, .f32⟩
  | .hbm, ⟨5, _⟩ => ⟨S2000000x3, .f32⟩
  | .hbm, ⟨6, _⟩ => ⟨S2000000x3, .f32⟩
  | .hbm, ⟨7, _⟩ => ⟨S_, .f32⟩
  | .hbm, ⟨8, _⟩ => ⟨S2000000x3, .f32⟩
  | .hbm, ⟨9, _⟩ => ⟨S2000000x3, .f32⟩
  | .hbm, ⟨10, _⟩ => ⟨S2000000x6, .f32⟩
  | .hbm, ⟨11, _⟩ => ⟨S_, .i32⟩
  | .hbm, ⟨12, _⟩ => ⟨S_, .f32⟩
  | .hbm, ⟨13, _⟩ => ⟨S2000000x8, .f32⟩
  | .hbm, ⟨14, _⟩ => ⟨S_, .i32⟩
  | .hbm, ⟨15, _⟩ => ⟨S_, .i32⟩
  | .hbm, ⟨16, _⟩ => ⟨S24018944, .i32⟩
  | .hbm, ⟨17, _⟩ => ⟨S_, .i32⟩
  | .hbm, ⟨18, _⟩ => ⟨S_, .i32⟩
  | .hbm, ⟨19, _⟩ => ⟨S24018944, .i32⟩
  | .hbm, ⟨20, _⟩ => ⟨S_, .i32⟩
  | .hbm, ⟨21, _⟩ => ⟨S24018944, .i32⟩
  | .hbm, ⟨22, _⟩ => ⟨S24018944, .i1⟩
  | .hbm, ⟨23, _⟩ => ⟨S_, .i32⟩
  | .hbm, ⟨24, _⟩ => ⟨S24018944, .i32⟩
  | .hbm, ⟨25, _⟩ => ⟨S24018944, .i32⟩
  | .hbm, ⟨26, _⟩ => ⟨S24018944, .i32⟩
  | .hbm, ⟨27, _⟩ => ⟨S24018944x1, .i32⟩
  | .hbm, ⟨28, _⟩ => ⟨S24018944x8, .f32⟩
  | .hbm, ⟨29, _⟩ => ⟨S_, .i32⟩
  | .hbm, ⟨30, _⟩ => ⟨S24018944, .i32⟩
  | .hbm, ⟨31, _⟩ => ⟨S24018944, .i1⟩
  | .hbm, ⟨32, _⟩ => ⟨S_, .i32⟩
  | .hbm, ⟨33, _⟩ => ⟨S24018944, .i32⟩
  | .hbm, ⟨34, _⟩ => ⟨S24018944, .i32⟩
  | .hbm, ⟨35, _⟩ => ⟨S24018944, .i32⟩
  | .hbm, ⟨36, _⟩ => ⟨S24018944x1, .i32⟩
  | .hbm, ⟨37, _⟩ => ⟨S24018944x8, .f32⟩
  | .hbm, ⟨38, _⟩ => ⟨S2x8x128, .f32⟩
  | .hbm, ⟨39, _⟩ => ⟨S2x1x1, .f32⟩
  | .hbm, ⟨40, _⟩ => ⟨S2, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S16384x8, .f32⟩
  | .local _ .vmem, ⟨1, _⟩ => ⟨S16384x8, .f32⟩
  | .local _ .vmem, ⟨2, _⟩ => ⟨S16384x8, .f32⟩
  | .local _ .vmem, ⟨3, _⟩ => ⟨S16384x8, .f32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_c_1 : Ref sig .tc := ⟨.hbm, 14, rfl⟩
abbrev main_call1_v0 : Ref sig .tc := ⟨.hbm, 15, rfl⟩
abbrev main_v6 : Ref sig .tc := ⟨.hbm, 16, rfl⟩
abbrev main_c_2 : Ref sig .tc := ⟨.hbm, 17, rfl⟩
abbrev main_call2_v0 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_c_4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_v16 : Ref sig .tc := ⟨.hbm, 31, rfl⟩
abbrev main_c_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 733], ![false, false]⟩

def k0_cond2 (i : grid0.Coords) : BitVec 1 :=
  let arg1 : BitVec 32 := BitVec.ofNat 32 (i 1).val
  let c732_i32 : BitVec 32 := 732#32
  let v30 : BitVec 1 := Scalar.cmpi .eq arg1 c732_i32
  let v31 : BitVec 32 := Scalar.extui v30
  let c0_i32_10 : BitVec 32 := 0#32
  let v32 : BitVec 1 := Scalar.cmpi .ne v31 c0_i32_10
  v32

def cc0_transform_0 (i : grid0.Coords) : Fin 2 → Nat :=
  let arg0 : BitVec 32 := BitVec.ofNat 32 (i 0).val
  let arg1 : BitVec 32 := BitVec.ofNat 32 (i 1).val
  let c733_i32 : BitVec 32 := 733#32
  let v0 : BitVec 32 := Scalar.muli arg0 c733_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c733_i32 : BitVec 32 := 733#32
  let v0 : BitVec 32 := Scalar.muli arg0 c733_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S2000000x3 : S_.BroadcastsInDim S2000000x3 (![] : Fin 0 → Fin S2000000x3.rank)
  concatenates_S2000000x3_S2000000x3_S2000000x6_d1 : Shape.Concatenates [S2000000x3, S2000000x3] S2000000x6 1
  pads_S2000000x6_S2000000x8_000_020 : S2000000x6.Pads (![0, 0] : Fin 2 → Nat) ![0, 2] ![0, 0] S2000000x8
  h_S_ : 0 < S_.numel
  pads_S23999901_S24018944_0190430 : S23999901.Pads (![0] : Fin 1 → Nat) ![19043] ![0] S24018944
  bcast_S_S24018944 : S_.BroadcastsInDim S24018944 (![] : Fin 0 → Fin S24018944.rank)
  bcast_S24018944_S24018944x1_0 : S24018944.BroadcastsInDim S24018944x1 (![0] : Fin 1 → Fin S24018944x1.rank)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S16384x8_S16384x8_0_0 : ∀ a, (![0, 0] : Fin 2 → Nat) a + S16384x8.size a ≤ S16384x8.size a
  h_S16384x8 : 0 < S16384x8.numel
  shapeCasts_S16384x8_S16384x8 : S16384x8.ShapeCasts S16384x8
  slices_S16384x8_o0_0_S16384x3 : S16384x8.Slices ![0, 0] S16384x3
  slices_S16384x8_o0_3_S16384x3 : S16384x8.Slices ![0, 3] S16384x3
  reduces_S16384x3_S16384 : S16384x3.Reduces [1] S16384
  shapeCasts_S16384_S16384x1 : S16384.ShapeCasts S16384x1
  reduces_S16384x1_S1 : S16384x1.Reduces [0] S1
  shapeCasts_S1_S1x1 : S1.ShapeCasts S1x1
  shapeCasts_S1x1_S1x1 : S1x1.ShapeCasts S1x1
  broadcasts_S1x1_S8x128 : S1x1.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  gather_S2000000x8_S24018944x1_S24018944x8_1_0_n_n_0_1_18_wf : GatherDims.WF S2000000x8 S24018944x1 S24018944x8 [1] [0] [] [0] [] 1 ![1, 8]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x8.size a ≤ S24018944x8.size a
  hwx0_0 : ∀ i : grid0.Coords, EltTy.bits .f32 = 32 ∨ (Rect.block (s := S24018944x8) S16384x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x8.size a ≤ S24018944x8.size a
  hwx0_1 : ∀ i : grid0.Coords, EltTy.bits .f32 = 32 ∨ (Rect.block (s := S24018944x8) S16384x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

def gather_S2000000x8_S24018944x1_S24018944x8_1_0_n_n_0_1_18 : GatherDims S2000000x8 S24018944x1 S24018944x8 where
  offsetDims := [1]
  collapsedSliceDims := [0]
  operandBatchingDims := []
  startIndicesBatchingDims := []
  startIndexMap := [0]
  indexVectorDim := 1
  sliceSizes := ![1, 8]
  wf := gather_S2000000x8_S24018944x1_S24018944x8_1_0_n_n_0_1_18_wf

abbrev win0_0 : Pipeline.Window sig grid0 :=
  Pipeline.Window.ofSpec (Memref.whole main_v14) S16384x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S16384x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2000000x3 : Shape := ⟨2, ![2000000, 3]⟩
abbrev S23999901 : Shape := ⟨1, ![23999901]⟩
abbrev S_ : Shape := ⟨0, ![]⟩
abbrev S23999901x1 : Shape := ⟨2, ![23999901, 1]⟩
abbrev S23999901x3 : Shape := ⟨2, ![23999901, 3]⟩

abbrev nBuf : Space → Nat
  | .hbm => 60
  | .vmem => 0
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S23999901, .i32⟩
  | .hbm, ⟨3, _⟩ => ⟨S23999901, .i32⟩
  | .hbm, ⟨4, _⟩ => ⟨S_, .f32⟩
  | .hbm, ⟨5, _⟩ => ⟨S2000000x3, .f32⟩
  | .hbm, ⟨6, _⟩ => ⟨S2000000x3, .f32⟩
  | .hbm, ⟨7, _⟩ => ⟨S_, .f32⟩
  | .hbm, ⟨8, _⟩ => ⟨S2000000x3, .f32⟩
  | .hbm, ⟨9, _⟩ => ⟨S2000000x3, .f32⟩
  | .hbm, ⟨10, _⟩ => ⟨S_, .i32⟩
  | .hbm, ⟨11, _⟩ => ⟨S23999901, .i32⟩
  | .hbm, ⟨12, _⟩ => ⟨S23999901, .i1⟩
  | .hbm, ⟨13, _⟩ => ⟨S_, .i32⟩
  | .hbm, ⟨14, _⟩ => ⟨S23999901, .i32⟩
  | .hbm, ⟨15, _⟩ => ⟨S23999901, .i32⟩
  | .hbm, ⟨16, _⟩ => ⟨S23999901, .i32⟩
  | .hbm, ⟨17, _⟩ => ⟨S23999901x1, .i32⟩
  | .hbm, ⟨18, _⟩ => ⟨S23999901x3, .f32⟩
  | .hbm, ⟨19, _⟩ => ⟨S_, .i32⟩
  | .hbm, ⟨20, _⟩ => ⟨S23999901, .i32⟩
  | .hbm, ⟨21, _⟩ => ⟨S23999901, .i1⟩
  | .hbm, ⟨22, _⟩ => ⟨S_, .i32⟩
  | .hbm, ⟨23, _⟩ => ⟨S23999901, .i32⟩
  | .hbm, ⟨24, _⟩ => ⟨S23999901, .i32⟩
  | .hbm, ⟨25, _⟩ => ⟨S23999901, .i32⟩
  | .hbm, ⟨26, _⟩ => ⟨S23999901x1, .i32⟩
  | .hbm, ⟨27, _⟩ => ⟨S23999901x3, .f32⟩
  | .hbm, ⟨28, _⟩ => ⟨S23999901x3, .f32⟩
  | .hbm, ⟨29, _⟩ => ⟨S_, .i32⟩
  | .hbm, ⟨30, _⟩ => ⟨S23999901, .i32⟩
  | .hbm, ⟨31, _⟩ => ⟨S23999901, .i1⟩
  | .hbm, ⟨32, _⟩ => ⟨S_, .i32⟩
  | .hbm, ⟨33, _⟩ => ⟨S23999901, .i32⟩
  | .hbm, ⟨34, _⟩ => ⟨S23999901, .i32⟩
  | .hbm, ⟨35, _⟩ => ⟨S23999901, .i32⟩
  | .hbm, ⟨36, _⟩ => ⟨S23999901x1, .i32⟩
  | .hbm, ⟨37, _⟩ => ⟨S23999901x3, .f32⟩
  | .hbm, ⟨38, _⟩ => ⟨S_, .i32⟩
  | .hbm, ⟨39, _⟩ => ⟨S23999901, .i32⟩
  | .hbm, ⟨40, _⟩ => ⟨S23999901, .i1⟩
  | .hbm, ⟨41, _⟩ => ⟨S_, .i32⟩
  | .hbm, ⟨42, _⟩ => ⟨S23999901, .i32⟩
  | .hbm, ⟨43, _⟩ => ⟨S23999901, .i32⟩
  | .hbm, ⟨44, _⟩ => ⟨S23999901, .i32⟩
  | .hbm, ⟨45, _⟩ => ⟨S23999901x1, .i32⟩
  | .hbm, ⟨46, _⟩ => ⟨S23999901x3, .f32⟩
  | .hbm, ⟨47, _⟩ => ⟨S23999901x3, .f32⟩
  | .hbm, ⟨48, _⟩ => ⟨S23999901x3, .f32⟩
  | .hbm, ⟨49, _⟩ => ⟨S_, .f32⟩
  | .hbm, ⟨50, _⟩ => ⟨S23999901, .f32⟩
  | .hbm, ⟨51, _⟩ => ⟨S23999901x3, .f32⟩
  | .hbm, ⟨52, _⟩ => ⟨S_, .f32⟩
  | .hbm, ⟨53, _⟩ => ⟨S23999901, .f32⟩
  | .hbm, ⟨54, _⟩ => ⟨S23999901, .f32⟩
  | .hbm, ⟨55, _⟩ => ⟨S23999901, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩

abbrev nD : Nat := 1
abbrev τ : Topo := Topo.v7x

variable {F : FTy → Type} [FloatOps F]

class Facts₀ : Prop where
  bcast_S_S2000000x3 : S_.BroadcastsInDim S2000000x3 (![] : Fin 0 → Fin S2000000x3.rank)
  bcast_S_S23999901 : S_.BroadcastsInDim S23999901 (![] : Fin 0 → Fin S23999901.rank)
  bcast_S23999901_S23999901x1_0 : S23999901.BroadcastsInDim S23999901x1 (![0] : Fin 1 → Fin S23999901x1.rank)
  reducesTo_S23999901x3_S23999901_d1 : S23999901x3.ReducesTo [1] S23999901
  h_S_ : 0 < S_.numel
  reducesTo_S23999901_S_d0 : S23999901.ReducesTo [0] S_
  gather_S2000000x3_S23999901x1_S23999901x3_1_0_n_n_0_1_13_wf : GatherDims.WF S2000000x3 S23999901x1 S23999901x3 [1] [0] [] [0] [] 1 ![1, 3]

variable [Facts₀]

def gather_S2000000x3_S23999901x1_S23999901x3_1_0_n_n_0_1_13 : GatherDims S2000000x3 S23999901x1 S23999901x3 where
  offsetDims := [1]
  collapsedSliceDims := [0]
  operandBatchingDims := []
  startIndicesBatchingDims := []
  startIndexMap := [0]
  indexVectorDim := 1
  sliceSizes := ![1, 3]
  wf := gather_S2000000x3_S23999901x1_S23999901x3_1_0_n_n_0_1_13_wf

class Facts : Prop extends Facts₀ where

variable [Facts]
-- ==== Proof.Spec.lean ====
/-
  The mathematics of the edge loss, stated once over plain functions (no program is imported here).

  Every directed edge `e` names a destination row and a source row of the vertex tables `x` and `dx`
  (each `[2000000, 3]`).  Its term is `| Σₖ (x[d,k] − x[s,k])² − Σₖ (dx[d,k] − dx[s,k])² |`, and the loss is
  the sum of the terms over the `23999901` edges divided by the (rounded) edge count.  A row is named by a
  32-bit word: a negative word is first moved up by the table's height, then the word is read as a signed
  integer and clamped into the table.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.EdgeLoss

open Idealize.ShloMosaic Idealize.ShloMosaic.ValueIdx

/-- The row a 32-bit index word selects in a table of 2000000 rows: a negative word is raised by 2000000,
    the result is read signed and clamped into `[0, 1999999]`. -/
def rowOf (w : BitVec 32) : Fin 2000000 :=
  ⟨min (Scalar.select (IntOp.cmpi .slt w 0#32) (IntOp.addi w 2000000#32) w).toInt.toNat (2000000 - 1), by omega⟩

/-- The squared distance of two rows of a three-column table: `Σₖ (t[d,k] − t[s,k])²`. -/
def sqDist (t : (⟨2, ![2000000, 3]⟩ : Shape).Idx → EReal) (d s : Fin 2000000) : EReal :=
  ∑ k : Fin 3, (t (ix2 d k) - t (ix2 s k)) * (t (ix2 d k) - t (ix2 s k))

/-- The absolute value on the extended reals, as the ideal instance reads `abs`. -/
def absE (a : EReal) : EReal := max a (-a)

/-- One edge's term, from the two index words of the edge. -/
def edgeTerm (dx x : (⟨2, ![2000000, 3]⟩ : Shape).Idx → EReal) (wd ws : BitVec 32) : EReal :=
  absE (sqDist x (rowOf wd) (rowOf ws) - sqDist dx (rowOf wd) (rowOf ws))

/-- The sum of the terms of all edges. -/
def total (dx x : (⟨2, ![2000000, 3]⟩ : Shape).Idx → EReal) (src dst : (⟨1, ![23999901]⟩ : Shape).Idx → BitVec 32) : EReal :=
  ∑ e : Fin 23999901, edgeTerm dx x (dst (ix1 e)) (src (ix1 e))

/-- The loss: the total divided by the edge count as the programs spell it (one 32-bit float word). -/
def loss (dx x : (⟨2, ![2000000, 3]⟩ : Shape).Idx → EReal) (src dst : (⟨1, ![23999901]⟩ : Shape).Idx → BitVec 32) : EReal :=
  Ideal.div (total dx x src dst) (Ideal.ofBits .f32 0x4BB71ACE#32)

/-- The index word of padded edge `e`: the edge's own word below the true edge count, the word `0` above it. -/
def padWord (a : (⟨1, ![23999901]⟩ : Shape).Idx → BitVec 32) (e : Fin 24018944) : BitVec 32 :=
  if h : e.val < 23999901 then a (ix1 ⟨e.val, h⟩) else 0#32

/-- A row differs from itself by nothing when its entries are real numbers. -/
theorem sqDist_self (t : (⟨2, ![2000000, 3]⟩ : Shape).Idx → EReal) (hfin : ∀ i, ∃ r : ℝ, t i = (r : EReal)) (d : Fin 2000000) :
    sqDist t d d = 0 := by
  unfold sqDist
  refine Finset.sum_eq_zero fun k _ => ?_
  obtain ⟨r, hr⟩ := hfin (ix2 d k)
  rw [hr, ← EReal.coe_sub, sub_self, EReal.coe_zero, mul_zero]

/-- A padded edge (both words `0`) contributes nothing when the tables hold real numbers. -/
theorem edgeTerm_same (dx x : (⟨2, ![2000000, 3]⟩ : Shape).Idx → EReal)
    (hx : ∀ i, ∃ r : ℝ, x i = (r : EReal)) (hdx : ∀ i, ∃ r : ℝ, dx i = (r : EReal)) (w : BitVec 32) :
    edgeTerm dx x w w = 0 := by
  unfold edgeTerm absE
  rw [sqDist_self x hx, sqDist_self dx hdx]
  simp

end Cert.EdgeLoss

end
-- ==== Proof.Body.lean ====
/-
  The kernel body as values.  At a grid point the body adds, to every entry of the 8×128 accumulator, the block's
  partial sum: over the block's 16384 rows, `| Σₖ (d[r,k] − s[r,k])² − Σₖ (d[r,3+k] − s[r,3+k])² |` of the two staged
  blocks `d`, `s`.  At a half's first point the accumulator is first reset to zero; at its last point the accumulator
  is copied to the output block.
-/
import proofs.«404212_j4776003633585_4_alg».proof.Proof.Gen.KernelIdeal.Frame
import proofs.«404212_j4776003633585_4_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.Tactic

noncomputable section

open scoped BigOperators

namespace Cert.KernelIdeal.Body

open Idealize.ShloMosaic Idealize.ShloMosaic.TcCoe Idealize.SL.Sem Idealize.ShloMosaic.ValueIdx
open Cert.KernelIdeal Cert.KernelIdeal.Gen Cert.EdgeLoss

/-- One row's term from the two staged blocks. -/
def rowTerm (d s : Vec Ideal S16384x8 .f32) (r : Fin 16384) : EReal :=
  absE ((∑ k : Fin 3, (d (ix2 r (⟨k.val, by omega⟩ : Fin 8)) - s (ix2 r (⟨k.val, by omega⟩ : Fin 8)))
                      * (d (ix2 r (⟨k.val, by omega⟩ : Fin 8)) - s (ix2 r (⟨k.val, by omega⟩ : Fin 8))))
      - (∑ k : Fin 3, (d (ix2 r (⟨k.val + 3, by omega⟩ : Fin 8)) - s (ix2 r (⟨k.val + 3, by omega⟩ : Fin 8)))
                      * (d (ix2 r (⟨k.val + 3, by omega⟩ : Fin 8)) - s (ix2 r (⟨k.val + 3, by omega⟩ : Fin 8)))))

/-- A block's partial sum. -/
def blockSum (d s : Vec Ideal S16384x8 .f32) : EReal := ∑ r : Fin 16384, rowTerm d s r

/-! ## The payloads at an index (at the ideal instance) -/

/-- The reset block is zero everywhere. -/
theorem pay1_apply (y : S8x128.Idx) : (k0_pay1 (F := Ideal)) y = 0 := by
  unfold k0_pay1
  exact (congrFun (shapeCast_self _ _) y).trans Ideal.ofBits_zero_f32

/-- The index a row reduction inserts column `k` into, over row `r`, is `(r, k)`. -/
theorem lift_col (r : Fin 16384) (k : Fin 3) : reduces_S16384x3_S16384.lift (ix1 r) k = ix2 r k :=
  funext fun c => match c with | ⟨0, _⟩ => Fin.ext rfl | ⟨1, _⟩ => Fin.ext rfl

/-- The index the column reduction inserts row `r` into, over the one result entry, is `(r, 0)`. -/
theorem lift_row (r : Fin 16384) : reduces_S16384x1_S1.lift (ix1 (0 : Fin 1)) r = ix2 r (0 : Fin 1) :=
  funext fun c => match c with | ⟨0, _⟩ => Fin.ext rfl | ⟨1, _⟩ => Fin.ext rfl

/-- The row sum of the squared differences of a three-column slice at offset `o`: the sum over the three columns
    `col k` (with `col k = o + k`) of the squared difference of the two blocks' entries. -/
theorem sqSlice_apply (d s : Vec Ideal S16384x8 .f32) (o : Nat) (hs : S16384x8.Slices ![0, o] S16384x3)
    (col : Fin 3 → Fin 8) (hcol : ∀ k, (col k).val = o + k.val) (r : Fin 16384) :
    multiReduction (F := Ideal) .add [1] S16384
        (mulf (subf (extractStridedSlice S16384x3 ![0, o] d hs) (extractStridedSlice S16384x3 ![0, o] s hs))
              (subf (extractStridedSlice S16384x3 ![0, o] d hs) (extractStridedSlice S16384x3 ![0, o] s hs)))
        0x00000000#32 reduces_S16384x3_S16384 (.inl rfl) rfl (ix1 r)
      = ∑ k : Fin 3, (d (ix2 r (col k)) - s (ix2 r (col k))) * (d (ix2 r (col k)) - s (ix2 r (col k))) := by
  refine (Ideal.multiReduction_add_single _ _ reduces_S16384x3_S16384 (.inl rfl) rfl (ix1 r)).trans ?_
  show ∑ k : Fin 3, _ = ∑ k : Fin 3, _
  refine Finset.sum_congr rfl fun k _ => ?_
  have hA : ∀ x : Vec Ideal S16384x8 .f32,
      extractStridedSlice S16384x3 ![0, o] x hs (reduces_S16384x3_S16384.lift (ix1 r) k) = x (ix2 r (col k)) := fun x => by
    rw [lift_col]
    exact extractStridedSlice_apply ![0, o] x hs (ix2 r k) (ix2 r (col k)) (fun a => by
      match a with
      | ⟨0, _⟩ => show r.val = 0 + r.val; omega
      | ⟨1, _⟩ => exact hcol k)
  show (extractStridedSlice S16384x3 ![0, o] d hs _ - extractStridedSlice S16384x3 ![0, o] s hs _)
      * (extractStridedSlice S16384x3 ![0, o] d hs _ - extractStridedSlice S16384x3 ![0, o] s hs _) = _
  rw [hA d, hA s]

/-- The absolute difference of two row vectors recast as columns, at row `r`. -/
theorem absRow_apply (p q : FVec Ideal S16384 .f32) (r : Fin 16384) (i : S16384x1.Idx) (hi : i = ix2 r (0 : Fin 1)) :
    absf (subf (shapeCast S16384x1 p shapeCasts_S16384_S16384x1) (shapeCast S16384x1 q shapeCasts_S16384_S16384x1)) i
      = absE (p (ix1 r) - q (ix1 r)) := by
  subst hi
  have e : ∀ x : FVec Ideal S16384 .f32,
      shapeCast S16384x1 x shapeCasts_S16384_S16384x1 (ix2 r (0 : Fin 1)) = x (ix1 r) := fun x =>
    shapeCast_apply x shapeCasts_S16384_S16384x1 (ix2 r (0 : Fin 1)) (ix1 r) (by
      rw [Shape.rowMajor_val_two, Shape.rowMajor_val_one]; show r.val = r.val * 1 + 0; omega)
  show absE (shapeCast S16384x1 p shapeCasts_S16384_S16384x1 (ix2 r (0 : Fin 1))
      - shapeCast S16384x1 q shapeCasts_S16384_S16384x1 (ix2 r (0 : Fin 1))) = _
  rw [e p, e q]

/-- The accumulating store: the accumulator read, plus the block's partial sum, at every entry. -/
theorem pay2_apply (d s : Vec Ideal S16384x8 .f32) (acc : Vec Ideal S8x128 .f32) (y : S8x128.Idx) :
    k0_pay2 d s acc y = acc y + blockSum d s := by
  obtain ⟨a, b, rfl⟩ : ∃ (a : Fin 8) (b : Fin 128), y = ix2 a b := ⟨y 0, y 1, eq_ix2 y⟩
  unfold k0_pay2
  simp only [shapeCast_self]
  show acc (ix2 a b) + broadcastTo S8x128 _ broadcasts_S1x1_S8x128 (ix2 a b) = _
  refine congrArg (fun t => acc (ix2 a b) + t) ?_
  refine (broadcastTo_apply _ broadcasts_S1x1_S8x128 (ix2 a b) (ix2 (0 : Fin 1) (0 : Fin 1)) (fun c => by
    match c with
    | ⟨0, _⟩ => rfl
    | ⟨1, _⟩ => rfl)).trans ?_
  refine (shapeCast_apply _ shapeCasts_S1_S1x1 (ix2 (0 : Fin 1) (0 : Fin 1)) (ix1 (0 : Fin 1)) (by
    rw [Shape.rowMajor_val_two, Shape.rowMajor_val_one]; rfl)).trans ?_
  refine (Ideal.multiReduction_add_single _ _ reduces_S16384x1_S1 _ _ (ix1 (0 : Fin 1))).trans ?_
  show ∑ r : Fin 16384, _ = ∑ r : Fin 16384, rowTerm d s r
  refine Finset.sum_congr rfl fun r _ => ?_
  refine (absRow_apply _ _ r _ (lift_row r)).trans ?_
  unfold rowTerm
  refine congrArg absE ?_
  refine congrArg₂ (fun u v : EReal => u - v) ?_ ?_
  · exact sqSlice_apply d s 0 slices_S16384x8_o0_0_S16384x3 (fun k => ⟨k.val, by omega⟩)
      (fun k => (Nat.zero_add _).symm) r
  · exact sqSlice_apply d s 3 slices_S16384x8_o0_3_S16384x3 (fun k => ⟨k.val + 3, by omega⟩)
      (fun k => Nat.add_comm _ _) r

/-- The output store is the accumulator, entry for entry. -/
theorem pay3_apply (acc : Vec Ideal S8x128 .f32) (a : Fin 8) (b : Fin 128) :
    k0_pay3 acc (ix3 (0 : Fin 1) a b) = acc (ix2 a b) := by
  unfold k0_pay3
  exact shapeCast_ab_1ab_apply acc shapeCasts_S8x128_S1x8x128 (0 : Fin 1) a b

/-! ## What each case of the body leaves (any float instance) -/

variable {F : FTy → Type} [FloatOps F]

/-- The zero offset of a rank-2 block, as a constant function. -/
theorem hz2 : (![0, 0] : Fin 2 → Nat) = fun _ => 0 := funext fun a => by fin_cases a <;> rfl

/-- The zero offset of a rank-3 block, as a constant function. -/
theorem hz3 : (![0, 0, 0] : Fin 3 → Nat) = fun _ => 0 := funext fun a => by fin_cases a <;> rfl

/-- A half's first point: the scratch ends at the accumulating payload over the reset block. -/
theorem sout_A (c : Dev nD) (i : grid0.Coords) (arg2 : Memref sig .tc .vmem S16384x8 .f32) (harg2 : arg2.IsWhole)
    (arg3 : Memref sig .tc .vmem S16384x8 .f32) (harg3 : arg3.IsWhole) (arg4 : Memref sig .tc .vmem S1x8x128 .f32)
    (harg4 : arg4.IsWhole) (arg5 : Memref sig .tc .vmem S8x128 .f32) (harg5 : arg5.IsWhole) (hc0 : cond0_0 i)
    (hc1 : ¬cond0_1 i) (x0 x1 : Vec F S16384x8 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x128) hz2, View.readCov_unit_zero (S := S8x128) _ hz2]
  simp only [View.readAt_eq_ld, harg2.read_unread, harg3.read_unread,
    View.ld_unit_zero (S := S16384x8) hz2]

/-- A middle point: the scratch ends at the accumulating payload over what the point before left. -/
theorem sout_B (c : Dev nD) (i : grid0.Coords) (arg2 : Memref sig .tc .vmem S16384x8 .f32) (harg2 : arg2.IsWhole)
    (arg3 : Memref sig .tc .vmem S16384x8 .f32) (harg3 : arg3.IsWhole) (arg4 : Memref sig .tc .vmem S1x8x128 .f32)
    (harg4 : arg4.IsWhole) (arg5 : Memref sig .tc .vmem S8x128 .f32) (harg5 : arg5.IsWhole) (hc0 : ¬cond0_0 i)
    (hc1 : ¬cond0_1 i) (x0 x1 : Vec F S16384x8 .f32) (xs0 : Vec F S8x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S16384x8) hz2, View.ld_unit_zero (S := S8x128) hz2]

/-- A half's last point: the scratch as at a middle point, … -/
theorem sout_C (c : Dev nD) (i : grid0.Coords) (arg2 : Memref sig .tc .vmem S16384x8 .f32) (harg2 : arg2.IsWhole)
    (arg3 : Memref sig .tc .vmem S16384x8 .f32) (harg3 : arg3.IsWhole) (arg4 : Memref sig .tc .vmem S1x8x128 .f32)
    (harg4 : arg4.IsWhole) (arg5 : Memref sig .tc .vmem S8x128 .f32) (harg5 : arg5.IsWhole) (hc0 : ¬cond0_0 i)
    (hc1 : cond0_1 i) (x0 x1 : Vec F S16384x8 .f32) (xs0 : Vec F S8x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S8x128) hz2]
  simp only [View.readAt_eq_ld, harg2.read_unread, harg3.read_unread, harg5.read_unread,
    View.ld_unit_zero (S := S16384x8) hz2, View.ld_unit_zero (S := S8x128) hz2]

/-- … and the output block at the copy of that scratch. -/
theorem out_C (c : Dev nD) (i : grid0.Coords) (arg2 : Memref sig .tc .vmem S16384x8 .f32) (harg2 : arg2.IsWhole)
    (arg3 : Memref sig .tc .vmem S16384x8 .f32) (harg3 : arg3.IsWhole) (arg4 : Memref sig .tc .vmem S1x8x128 .f32)
    (harg4 : arg4.IsWhole) (arg5 : Memref sig .tc .vmem S8x128 .f32) (harg5 : arg5.IsWhole) (hc0 : ¬cond0_0 i)
    (hc1 : cond0_1 i) (x0 x1 : Vec F S16384x8 .f32) (xs0 : Vec F S8x128 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x8x128) hz3, View.readCov_unit_zero (S := S8x128) _ hz2]
  simp only [View.readAt_eq_ld, harg2.read_unread, harg3.read_unread, harg5.read_unread,
    View.ld_unit_zero (S := S16384x8) hz2, View.ld_unit_zero (S := S8x128) hz2]

end Cert.KernelIdeal.Body

end
-- ==== Proof.Acc.lean ====
/-
  The accumulator over a half of the grid.  The scratch is reset at a half's first point and every point adds its
  block's partial sum to every entry, so after the point at offset `j` of half `q` each entry holds
  `0 + Σ_{s ≤ j} (partial sum of block 733·q + s)`; at the half's last point the output block is a copy of it.
-/
import proofs.«404212_j4776003633585_4_alg».proof.Proof.Body

noncomputable section

open scoped BigOperators

namespace Cert.KernelIdeal.Acc

open Idealize.ShloMosaic Idealize.ShloMosaic.TcCoe Idealize.SL.Sem Idealize.ShloMosaic.ValueIdx
open Cert.KernelIdeal Cert.KernelIdeal.Gen Cert.EdgeLoss Cert.KernelIdeal.Body

variable (m : (ℓ : Loc nD τ sig) → Buf (Elt Ideal) ℓ)

/-- The partial sum of the block grid point `n` stages (zero past the grid: never used there). -/
def partialAt (c : Dev nD) (n : Nat) : EReal :=
  if h : n < cfg0.N then blockSum (iblk m c 0 ⟨n, h⟩) (iblk m c 1 ⟨n, h⟩) else 0

theorem partialAt_of_lt (c : Dev nD) (n : Nat) (h : n < cfg0.N) :
    partialAt m c n = blockSum (iblk m c 0 ⟨n, h⟩) (iblk m c 1 ⟨n, h⟩) := dif_pos h

/-- The scratch after point `n`. -/
abbrev scratchAt (c : Dev nD) (n : Nat) (h : n < cfg0.N) : Vec Ideal S8x128 .f32 := (outsAt0 m c n h).2

/-- What a half's first point leaves: the accumulating store over the reset block. -/
abbrev resetAt (c : Dev nD) (n : Nat) (h : n < cfg0.N) : Vec Ideal S8x128 .f32 :=
  k0_pay2 (iblk m c 0 ⟨n, h⟩) (iblk m c 1 ⟨n, h⟩) (k0_pay1 (F := Ideal))

/-- What every later point does to the scratch it finds. -/
abbrev stepAt (c : Dev nD) (n : Nat) (h : n < cfg0.N) (acc : Vec Ideal S8x128 .f32) : Vec Ideal S8x128 .f32 :=
  k0_pay2 (iblk m c 0 ⟨n, h⟩) (iblk m c 1 ⟨n, h⟩) acc

/-- At a half's first point the scratch is the reset value. -/
theorem scratch_reset (c : Dev nD) (n : Nat) (h : n < cfg0.N) (h0 : n % 733 = 0) :
    scratchAt m c n h = resetAt m c n h := by
  have h1 : ¬ n % 733 = 732 := by omega
  have e := outsAt0_A m c ⟨n, h⟩ h0 h1
  show (outsAt0 m c n h).2 = _
  rw [show outsAt0 m c n h = outsAt0 m c (⟨n, h⟩ : Fin cfg0.N).val (⟨n, h⟩ : Fin cfg0.N).isLt from rfl, e]
  dsimp only
  exact sout_A (F := Ideal) c _ _ _ _ _ _ _ _ _ _ _ _ _

/-- At every other point the scratch is the step applied to what the point before left. -/
theorem scratch_step (c : Dev nD) (n : Nat) (h : n + 1 < cfg0.N) (h0 : ¬ (n + 1) % 733 = 0) :
    scratchAt m c (n + 1) h = stepAt m c (n + 1) h (scratchAt m c n (Nat.lt_of_succ_lt h)) := by
  show (outsAt0 m c (n + 1) h).2 = _
  by_cases h1 : (n + 1) % 733 = 732
  · have e := outsAt0_C m c ⟨n + 1, h⟩ h0 h1
    rw [show outsAt0 m c (n + 1) h = outsAt0 m c (⟨n + 1, h⟩ : Fin cfg0.N).val (⟨n + 1, h⟩ : Fin cfg0.N).isLt from rfl, e]
    dsimp only
    exact sout_C (F := Ideal) c _ _ _ _ _ _ _ _ _ _ _ _ _ _
  · have e := outsAt0_B m c ⟨n + 1, h⟩ h0 h1
    rw [show outsAt0 m c (n + 1) h = outsAt0 m c (⟨n + 1, h⟩ : Fin cfg0.N).val (⟨n + 1, h⟩ : Fin cfg0.N).isLt from rfl, e]
    dsimp only
    exact sout_B (F := Ideal) c _ _ _ _ _ _ _ _ _ _ _ _ _ _

/-- The scratch after the point at offset `j` of half `q`: zero plus the partial sums of the half's blocks so far. -/
theorem scratch_sum (c : Dev nD) (q j : Nat) (hj : j < 733) (h : 733 * q + j < cfg0.N) (y : S8x128.Idx) :
    scratchAt m c (733 * q + j) h y = 0 + ∑ s ∈ Finset.range (j + 1), partialAt m c (733 * q + s) := by
  have hacc := Pipeline.eq_accAt (N := cfg0.N) (scratchAt m c) 733 (resetAt m c) (stepAt m c)
    (fun n hn h0 => scratch_reset m c n hn h0) (fun n hn h0 => scratch_step m c n hn h0) q j hj h
  rw [hacc]
  exact Pipeline.accAt_add_apply (N := cfg0.N) (resetAt m c) (stepAt m c) (fun _ => (0 : EReal))
    (fun n _ => partialAt m c n) (733 * q) 732
    (fun hb i => by
      show k0_pay2 (F := Ideal) _ _ _ i = 0 + partialAt m c (733 * q)
      rw [pay2_apply, pay1_apply, partialAt_of_lt m c _ hb])
    (fun n hn acc i _ _ => by
      show k0_pay2 (F := Ideal) _ _ acc i = acc i + partialAt m c n
      rw [pay2_apply, partialAt_of_lt m c _ hn])
    j (by omega) h y

/-- The output block at a half's last point is the copy of the scratch there. -/
theorem out_last (c : Dev nD) (n : Nat) (h : n < cfg0.N) (h1 : n % 733 = 732) (a : Fin 8) (b : Fin 128) :
    ((outsAt0 m c n h).1 : Vec Ideal S1x8x128 .f32) (ix3 (0 : Fin 1) a b) = scratchAt m c n h (ix2 a b) := by
  have h0 : ¬ n % 733 = 0 := by omega
  have e := outsAt0_C m c ⟨n, h⟩ h0 h1
  have e' : outsAt0 m c n h = outsAt0 m c (⟨n, h⟩ : Fin cfg0.N).val (⟨n, h⟩ : Fin cfg0.N).isLt := rfl
  show ((outsAt0 m c n h).1 : Vec Ideal S1x8x128 .f32) (ix3 (0 : Fin 1) a b) = (outsAt0 m c n h).2 (ix2 a b)
  rw [e', e]
  dsimp only
  rw [out_C (F := Ideal), sout_C (F := Ideal), pay3_apply]

end Cert.KernelIdeal.Acc

end
-- ==== Proof.Out.lean ====
/-
  The kernel's output array after the run.  Output block `q` (one per half of the grid) is written back once, at the
  half's last point, and holds the copy of the accumulator there: every entry of row `q` of the `[2, 8, 128]` array
  ends at `0 + Σ_{s < 733} (partial sum of block 733·q + s)`.
-/
import proofs.«404212_j4776003633585_4_alg».proof.Proof.Acc
import Idealize.ShloMosaic.Lib.Pipeline.Value

noncomputable section

open scoped BigOperators

namespace Cert.KernelIdeal.Out

open Idealize.ShloMosaic Idealize.ShloMosaic.TcCoe Idealize.SL.Sem Idealize.ShloMosaic.ValueIdx
open Idealize.ShloMosaic.Pipeline (Dat)
open Cert.KernelIdeal Cert.KernelIdeal.Gen Cert.EdgeLoss Cert.KernelIdeal.Body Cert.KernelIdeal.Acc

variable (m : (ℓ : Loc nD τ sig) → Buf (Elt Ideal) ℓ)

/-- The output window's block index at every grid point: the half the point lies in, and the whole 8×128 tile. -/
theorem out_index : ∀ t : Fin cfg0.N, win0_2.index t (0 : Fin 3) = t.val / 733
    ∧ win0_2.index t (1 : Fin 3) = 0 ∧ win0_2.index t (2 : Fin 3) = 0 :=
  (by decide +kernel : ∀ t : Fin grid0.N, win0_2.index t (0 : Fin 3) = t.val / 733
    ∧ win0_2.index t (1 : Fin 3) = 0 ∧ win0_2.index t (2 : Fin 3) = 0)

/-- A half's total: zero plus the partial sums of its 733 blocks. -/
def halfSum (c : Dev nD) (q : Nat) : EReal := 0 + ∑ s ∈ Finset.range 733, partialAt m c (733 * q + s)

/-- What the output array ends holding: at `(q, a, b)` the total of half `q`. -/
def outArr (c : Dev nD) : Buf (Elt Ideal) ((c : Thread nD τ).loc main_v22) := fun i => halfSum m c (i 0).val

/-- The scratch does not depend on how its point is spelled. -/
theorem scratchAt_congr (c : Dev nD) (n n' : Nat) (h : n < cfg0.N) (h' : n' < cfg0.N) (e : n = n') :
    scratchAt m c n h = scratchAt m c n' h' := by subst e; rfl

/-- The output block at a half's last point, entry by entry, is the half's total. -/
theorem out_block (c : Dev nD) (t : Fin cfg0.N) (h1 : t.val % 733 = 732) (y : S1x8x128.Idx) :
    ((outsAt0 m c t.val t.isLt).1 : Vec Ideal S1x8x128 .f32) y = halfSum m c (t.val / 733) := by
  obtain ⟨z, a, b, rfl⟩ : ∃ (z : Fin 1) (a : Fin 8) (b : Fin 128), y = ix3 z a b := ⟨y 0, y 1, y 2, eq_ix3 y⟩
  obtain rfl : z = 0 := Subsingleton.elim _ _
  have hN : cfg0.N = 1466 := N_0
  have ht : t.val = 733 * (t.val / 733) + 732 := by omega
  have hlt : 733 * (t.val / 733) + 732 < cfg0.N := by have := t.isLt; omega
  rw [out_last m c t.val t.isLt h1 a b, scratchAt_congr m c t.val _ t.isLt hlt ht,
    scratch_sum m c (t.val / 733) 732 (by omega) hlt]
  rfl

/-- WHAT A WRITE-BACK WRITES is its block of `outArr`. -/
theorem flushed_eq (c : Dev nD) (t : Fin cfg0.N) (hf : (cfg0.win 2).flush t = true) :
    (dats m 0 c).flushed 2 t = ((cfg0.win 2).blk t).view.read (Elt Ideal) (outArr m c) := by
  have h1 : t.val % 733 = 732 := (flush0_2 t).mp hf
  obtain ⟨e0, e1, e2⟩ := out_index t
  show (cfg0.win 2).cut (grid0.coords t) ((dats m 0 c).after 2 t) = _
  rw [after0_2]
  funext j
  rw [View.read_apply]
  have hq : ((((cfg0.win 2).blk t).view.emb j) (0 : Fin 3)).val = t.val / 733 := by
    show win0_2.index t (0 : Fin 3) * 1 + 1 * (j 0).val = _
    have hj : (j 0).val < 1 := (j 0).isLt
    omega
  show ((outsAt0 m c t.val t.isLt).1 : Vec Ideal S1x8x128 .f32) j = halfSum m c ((((cfg0.win 2).blk t).view.emb j) (0 : Fin 3)).val
  rw [hq]
  exact out_block m c t h1 j

/-- Membership in a block of the output array, by coordinates. -/
theorem mem_blk (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v22).slice (win0_2.rect t)).set ↔ _
  rw [View.set_slice_whole, Rect.mem_set_unit]
  exact Iff.rfl

/-- Every index of the output array lies in the block its half's last point writes back. -/
theorem cover (i : S2x8x128.Idx) :
    ∃ t : Fin cfg0.N, (cfg0.win 2).flush t = true ∧ i ∈ ((cfg0.win 2).blk t).view.set := by
  have hN : cfg0.N = 1466 := N_0
  have h0 : (i 0).val < 2 := (i 0).isLt
  have h1 : (i 1).val < 8 := (i 1).isLt
  have h2 : (i 2).val < 128 := (i 2).isLt
  let t : Fin cfg0.N := ⟨733 * (i 0).val + 732, by omega⟩
  have ht : t.val = 733 * (i 0).val + 732 := rfl
  obtain ⟨e0, e1, e2⟩ := out_index t
  refine ⟨t, (flush0_2 t).mpr (by rw [ht]; omega), ?_⟩
  rw [mem_blk]
  intro a
  match a with
  | ⟨0, _⟩ =>
    show win0_2.index t (0 : Fin 3) * 1 ≤ (i 0).val ∧ (i 0).val < win0_2.index t (0 : Fin 3) * 1 + 1
    rw [e0, ht]; omega
  | ⟨1, _⟩ =>
    show win0_2.index t (1 : Fin 3) * 8 ≤ (i 1).val ∧ (i 1).val < win0_2.index t (1 : Fin 3) * 8 + 8
    rw [e1]; omega
  | ⟨2, _⟩ =>
    show win0_2.index t (2 : Fin 3) * 128 ≤ (i 2).val ∧ (i 2).val < win0_2.index t (2 : Fin 3) * 128 + 128
    rw [e2]; omega

/-- THE OUTPUT ARRAY after the run. -/
theorem final_out (c : Dev nD) : (dats m 0 c).arrAt 2 cfg0.N = outArr m c :=
  (dats m 0 c).arrAt_eq_of_cover 2 (outArr m c) (flushed_eq m c) cover

end Cert.KernelIdeal.Out

end
-- ==== Proof.LibTakeRows.lean ====
/-
  A row take read at an index.  `x[idx]` of a matrix `x : [N, W]` at a vector of row numbers lowers to a
  `stablehlo.gather` whose start indices are laid out as a column `[E, 1]`: offset axis 1, collapsed axis 0,
  start index map `[0]`, index vector axis 1, slices of one whole row.  Result element `(e, k)` is the
  operand at column `k` of the row `idx[e, 0]`, read as a signed integer and clamped into `[0, N − 1]`.
-/
import Idealize.ShloMosaic.Lib.ValueIdx

noncomputable section

namespace Cert.LibTakeRows

open Idealize.ShloMosaic Idealize.ShloMosaic.ValueIdx

variable {α : Type}

/-- The dimension numbers of a row take, for an operand `[N, W]`, start indices `[E, 1]` and a result `[E, W]`;
    their conditions `wf` are decided on a program's literal shapes. -/
abbrev rowDims (N W E : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- THE ROW TAKE READ AT `(e, k)`: column `k` of the row the start index `idx[e, 0]` names, read signed and
    clamped into `[0, N − 1]`. -/
theorem gather_rows_apply {N W E w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowDims N W E wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    -- axis 0 is collapsed and named by the start index map: the clamped start index, no batch or offset part
    show (rowDims N W E wf).start (ix2 e k) idx 0 + (rowDims N W E wf).batchCoord (ix2 e k) 0
      + (rowDims N W E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N W E wf).startIndexMap from List.mem_singleton.mpr rfl)]
    have hsi : (rowDims N W E wf).siIdx (ix2 e k) ⟨List.idxOf (0 : Fin 2) (rowDims N W E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is kept whole: start 0 (not in the start index map), no batch part, offset the result's column
    show (rowDims N W E wf).start (ix2 e k) idx 1 + (rowDims N W E wf).batchCoord (ix2 e k) 1
      + (rowDims N W E wf).offCoord (ix2 e k) 1 = _
    rw [GatherDims.batchCoord_eq_zero _ _ _ List.not_mem_nil]
    unfold GatherDims.start
    have h10 : ¬ (1 : Fin 2) = 0 := by decide
    rw [dif_neg (show (1 : Fin 2) ∉ (rowDims N W E wf).startIndexMap from fun h => h10 (List.mem_singleton.mp h))]
    have hk : (1 : Fin 2) ∈ (rowDims N W E wf).sKept :=
      (GatherDims.mem_sKept _ _).mpr ⟨fun h => h10 (List.mem_singleton.mp h), List.not_mem_nil⟩
    unfold GatherDims.offCoord
    rw [dif_pos hk]
    simp only [Nat.zero_add, Nat.add_zero]
    rfl

end Cert.LibTakeRows

end
-- ==== Proof.HostPre.lean ====
/-
  What the kernel's program hands its region.  Before the region the program builds one table of eight columns per
  vertex — the three columns of `x`, the three of `dx`, two of zeros (each table first multiplied by the float one) —,
  pads both index vectors with the word `0` up to 24018944 entries, and takes the table's rows at the (wrapped, clamped)
  indices.  Read at an index, the two gathered arrays hold `x` in columns 0–2 and `dx` in columns 3–5 of the row the
  padded index word names.
-/
import proofs.«404212_j4776003633585_4_alg».proof.Proof.Gen.KernelIdeal.Frame
import proofs.«404212_j4776003633585_4_alg».proof.Proof.Spec
import proofs.«404212_j4776003633585_4_alg».proof.Proof.LibTakeRows
import Idealize.ShloMosaic.Lib.Pipeline.Value
import Idealize.ShloMosaic.Lib.StableHlo.Run
import Idealize.ShloMosaic.Lib.KernelVsHost
import Idealize.ShloMosaic.Lib.IdealHost
import Idealize.ShloMosaic.Lib.ValueIdx
import Idealize.ShloMosaic.Lib.Tactic

noncomputable section

namespace Cert.KernelIdeal.HostPre

open Idealize.ShloMosaic Idealize.ShloMosaic.TcCoe Idealize.SL.Sem Idealize.ShloMosaic.ValueIdx
open Cert.KernelIdeal Cert.KernelIdeal.Gen Cert.EdgeLoss

variable (m : (ℓ : Loc nD τ sig) → Buf (Elt Ideal) ℓ)

/-! ## The host operations before the region, as functions of the argument arrays -/

/-- A three-column table multiplied, entry by entry, by the float one broadcast to its shape. -/
def scaled (t : FVec Ideal S2000000x3 .f32) : FVec Ideal S2000000x3 .f32 :=
  mulf t (broadcastInDim S2000000x3 ![] bcast_S_S2000000x3 (constant (F := Ideal) S_ .f32 0x3F800000#32))

/-- The six-column table: the scaled `x` beside the scaled `dx`. -/
def table6 (x dx : FVec Ideal S2000000x3 .f32) : FVec Ideal S2000000x6 .f32 :=
  concatenate S2000000x6 1 [⟨S2000000x3, scaled x⟩, ⟨S2000000x3, scaled dx⟩] concatenates_S2000000x3_S2000000x3_S2000000x6_d1

/-- The eight-column table: the six-column one with two more columns holding the integer zero as a float. -/
def table8 (x dx : FVec Ideal S2000000x3 .f32) : FVec Ideal S2000000x8 .f32 :=
  pad S2000000x8 ![0, 0] ![0, 2] ![0, 0] (table6 x dx) (sitofp (F := Ideal) .f32 (constantI S_ 32 0#32))
    pads_S2000000x6_S2000000x8_000_020 h_S_

/-- An index vector padded at its end with the word `0` up to 24018944 entries. -/
def padIdx (a : IVec S23999901 32) : IVec S24018944 32 :=
  pad S24018944 ![0] ![19043] ![0] a (constantI S_ 32 0#32) pads_S23999901_S24018944_0190430 h_S_

/-- The start indices of the row take: each padded word, raised by 2000000 when negative, laid out as a column. -/
def startIdx (a : IVec S23999901 32) : IVec S24018944x1 32 :=
  broadcastInDim S24018944x1 ![0] bcast_S24018944_S24018944x1_0
    (select (cmpi .slt (padIdx a) (broadcastInDim S24018944 ![] bcast_S_S24018944 (constantI S_ 32 0#32)))
      (addi (padIdx a) (broadcastInDim S24018944 ![] bcast_S_S24018944 (constantI S_ 32 2000000#32)))
      (padIdx a))

/-- The rows of the eight-column table at the start indices. -/
def rows (x dx : FVec Ideal S2000000x3 .f32) (a : IVec S23999901 32) : FVec Ideal S24018944x8 .f32 :=
  Host.gather gather_S2000000x8_S24018944x1_S24018944x8_1_0_n_n_0_1_18 (table8 x dx) (startIdx a)

/-! ## The two gathered arrays are those functions of the launch contents -/

/-- The first gathered array is the rows at the destination indices: the operations' results composed, each read
    at its own result buffer. -/
theorem V_v14 (c : Dev nD) :
    (V m c main_v14 : S24018944x8.Idx → EReal)
      = rows (m ((c : Thread nD τ).loc main_arg1)) (m ((c : Thread nD τ).loc main_arg0)) (m ((c : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))
  rfl

/-- The second gathered array is the rows at the source indices. -/
theorem V_v21 (c : Dev nD) :
    (V m c main_v21 : S24018944x8.Idx → EReal)
      = rows (m ((c : Thread nD τ).loc main_arg1)) (m ((c : Thread nD τ).loc main_arg0)) (m ((c : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))
  rfl

/-! ## Those functions read at an index -/

/-- Multiplying by the float one changes no entry. -/
theorem scaled_apply (t : FVec Ideal S2000000x3 .f32) (i : S2000000x3.Idx) : scaled t i = t i := by
  unfold scaled
  rw [mulf_apply, broadcastInDim_scalar_apply]
  show t i * Ideal.ofBits .f32 0x3F800000#32 = t i
  rw [Ideal.ofBits_one_f32, mul_one]

/-- Columns 0–2 of the six-column table are `x`. -/
theorem table6_left (x dx : FVec Ideal S2000000x3 .f32) (r : Fin 2000000) (k : Fin 3) :
    table6 x dx (ix2 r (⟨k.val, by omega⟩ : Fin 6)) = x (ix2 r k) := by
  unfold table6
  refine (concatenate_pair_apply_left (1 : Fin 2) (scaled x) (scaled dx) concatenates_S2000000x3_S2000000x3_S2000000x6_d1
    (ix2 r (⟨k.val, by omega⟩ : Fin 6)) rfl (ix2 r k) (fun b => match b with
      | ⟨0, _⟩ => rfl
      | ⟨1, _⟩ => rfl)).trans (scaled_apply x _)

/-- Columns 3–5 of the six-column table are `dx`. -/
theorem table6_right (x dx : FVec Ideal S2000000x3 .f32) (r : Fin 2000000) (k : Fin 3) :
    table6 x dx (ix2 r (⟨k.val + 3, by omega⟩ : Fin 6)) = dx (ix2 r k) := by
  unfold table6
  refine (concatenate_pair_apply_right (1 : Fin 2) (scaled x) (scaled dx) concatenates_S2000000x3_S2000000x3_S2000000x6_d1
    (ix2 r (⟨k.val + 3, by omega⟩ : Fin 6)) rfl rfl (ix2 r k) (fun b => match b with
      | ⟨0, _⟩ => fun _ => rfl
      | ⟨1, _⟩ => fun h => absurd rfl h) rfl).trans (scaled_apply dx _)

/-- Columns 0–5 of the eight-column table are the six-column table's. -/
theorem table8_apply (x dx : FVec Ideal S2000000x3 .f32) (r : Fin 2000000) (j : Fin 6) :
    table8 x dx (ix2 r (⟨j.val, by omega⟩ : Fin 8)) = table6 x dx (ix2 r j) := by
  unfold table8
  exact pad_apply_of_inside _ _ _ (table6 x dx) _ pads_S2000000x6_S2000000x8_000_020 h_S_ _ (ix2 r j) (fun a => match a with
    | ⟨0, _⟩ => by show r.val = 0 + r.val * (0 + 1); omega
    | ⟨1, _⟩ => by show j.val = 0 + j.val * (0 + 1); omega)

/-- The padded index vector at entry `e` is the padded word of edge `e`. -/
theorem padIdx_apply (a : IVec S23999901 32) (e : Fin 24018944) : padIdx a (ix1 e) = padWord a e := by
  unfold padIdx padWord
  by_cases h : e.val < 23999901
  · rw [dif_pos h]
    exact pad_apply_of_inside _ _ _ a _ pads_S23999901_S24018944_0190430 h_S_ _ (ix1 (⟨e.val, h⟩ : Fin 23999901)) (fun b => match b with
      | ⟨0, _⟩ => by show e.val = 0 + e.val * (0 + 1); omega)
  · rw [dif_neg h]
    refine (pad_apply_of_not_inside _ _ _ a _ pads_S23999901_S24018944_0190430 h_S_ (ix1 e) (0 : Fin 1) ?_).trans rfl
    intro hin
    have h3 : (e.val - 0) / (0 + 1) < 23999901 := hin.2.2
    rw [Nat.sub_zero, Nat.zero_add, Nat.div_one] at h3
    exact h h3

/-- A vector laid out as a column reads the vector's entry. -/
theorem column_apply (y : IVec S24018944 32) (e : Fin 24018944) :
    broadcastInDim S24018944x1 ![0] bcast_S24018944_S24018944x1_0 y (ix2 e (0 : Fin 1)) = y (ix1 e) :=
  broadcastInDim_apply _ bcast_S24018944_S24018944x1_0 y (ix2 e (0 : Fin 1)) (ix1 e) (fun b => match b with
    | ⟨0, _⟩ => by show e.val = if (24018944 : Nat) = 1 then 0 else e.val; rw [if_neg (by decide)])

/-- The start index of entry `e` is the padded word, raised by 2000000 when it is negative. -/
theorem startIdx_apply (a : IVec S23999901 32) (e : Fin 24018944) :
    startIdx a (ix2 e (0 : Fin 1))
      = Scalar.select (IntOp.cmpi .slt (padWord a e) 0#32) (IntOp.addi (padWord a e) 2000000#32) (padWord a e) := by
  unfold startIdx
  rw [column_apply, select_apply]
  show Scalar.select
      (IntOp.cmpi .slt (padIdx a (ix1 e)) (broadcastInDim S24018944 ![] bcast_S_S24018944 (constantI S_ 32 0#32) (ix1 e)))
      (IntOp.addi (padIdx a (ix1 e)) (broadcastInDim S24018944 ![] bcast_S_S24018944 (constantI S_ 32 2000000#32) (ix1 e)))
      (padIdx a (ix1 e)) = _
  rw [broadcastInDim_scalar_apply, broadcastInDim_scalar_apply, padIdx_apply]
  rfl

/-- Entry `(e, j)` of the gathered rows is column `j` of the table's row that the padded word of edge `e` names. -/
theorem rows_apply (x dx : FVec Ideal S2000000x3 .f32) (a : IVec S23999901 32) (e : Fin 24018944) (j : Fin 8) :
    rows x dx a (ix2 e j) = table8 x dx (ix2 (rowOf (padWord a e)) j) := by
  unfold rows
  have hd : gather_S2000000x8_S24018944x1_S24018944x8_1_0_n_n_0_1_18
      = Cert.LibTakeRows.rowDims 2000000 8 24018944 gather_S2000000x8_S24018944x1_S24018944x8_1_0_n_n_0_1_18_wf := rfl
  rw [hd, Cert.LibTakeRows.gather_rows_apply (by omega) _ (table8 x dx) (startIdx a) e j]
  refine congrArg (table8 x dx) (congrArg (fun r : Fin 2000000 => ix2 r j) (Fin.ext ?_))
  show min (startIdx a (ix2 e (0 : Fin 1))).toInt.toNat (2000000 - 1) = (rowOf (padWord a e)).val
  rw [startIdx_apply]
  rfl

/-- Entry `(e, k)`, `k < 3`, of the gathered rows is `x` at the named row. -/
theorem rows_x (x dx : FVec Ideal S2000000x3 .f32) (a : IVec S23999901 32) (e : Fin 24018944) (k : Fin 3) :
    rows x dx a (ix2 e (⟨k.val, by omega⟩ : Fin 8)) = x (ix2 (rowOf (padWord a e)) k) := by
  rw [rows_apply]
  exact (table8_apply x dx (rowOf (padWord a e)) (⟨k.val, by omega⟩ : Fin 6)).trans (table6_left x dx _ k)

/-- Entry `(e, 3 + k)` of the gathered rows is `dx` at the named row. -/
theorem rows_dx (x dx : FVec Ideal S2000000x3 .f32) (a : IVec S23999901 32) (e : Fin 24018944) (k : Fin 3) :
    rows x dx a (ix2 e (⟨k.val + 3, by omega⟩ : Fin 8)) = dx (ix2 (rowOf (padWord a e)) k) := by
  rw [rows_apply]
  exact (table8_apply x dx (rowOf (padWord a e)) (⟨k.val + 3, by omega⟩ : Fin 6)).trans (table6_right x dx _ k)

/-! ## The four readings -/

/-- The destination rows, `x` columns: entry `(e, k)`, `k < 3`, of the first gathered array. -/
theorem dst_x (c : Dev nD) (e : Fin 24018944) (k : Fin 3) :
    (V m c main_v14 : S24018944x8.Idx → EReal) (ix2 e (⟨k.val, by omega⟩ : Fin 8))
      = (m ((c : Thread nD τ).loc main_arg1) : S2000000x3.Idx → EReal)
          (ix2 (rowOf (padWord (m ((c : Thread nD τ).loc main_arg3)) e)) k) := by
  rw [V_v14]
  exact rows_x _ _ _ e k

/-- The destination rows, `dx` columns: entry `(e, 3 + k)` of the first gathered array. -/
theorem dst_dx (c : Dev nD) (e : Fin 24018944) (k : Fin 3) :
    (V m c main_v14 : S24018944x8.Idx → EReal) (ix2 e (⟨k.val + 3, by omega⟩ : Fin 8))
      = (m ((c : Thread nD τ).loc main_arg0) : S2000000x3.Idx → EReal)
          (ix2 (rowOf (padWord (m ((c : Thread nD τ).loc main_arg3)) e)) k) := by
  rw [V_v14]
  exact rows_dx _ _ _ e k

/-- The source rows, `x` columns: entry `(e, k)`, `k < 3`, of the second gathered array. -/
theorem src_x (c : Dev nD) (e : Fin 24018944) (k : Fin 3) :
    (V m c main_v21 : S24018944x8.Idx → EReal) (ix2 e (⟨k.val, by omega⟩ : Fin 8))
      = (m ((c : Thread nD τ).loc main_arg1) : S2000000x3.Idx → EReal)
          (ix2 (rowOf (padWord (m ((c : Thread nD τ).loc main_arg2)) e)) k) := by
  rw [V_v21]
  exact rows_x _ _ _ e k

/-- The source rows, `dx` columns: entry `(e, 3 + k)` of the second gathered array. -/
theorem src_dx (c : Dev nD) (e : Fin 24018944) (k : Fin 3) :
    (V m c main_v21 : S24018944x8.Idx → EReal) (ix2 e (⟨k.val + 3, by omega⟩ : Fin 8))
      = (m ((c : Thread nD τ).loc main_arg0) : S2000000x3.Idx → EReal)
          (ix2 (rowOf (padWord (m ((c : Thread nD τ).loc main_arg2)) e)) k) := by
  rw [V_v21]
  exact rows_dx _ _ _ e k

end Cert.KernelIdeal.HostPre

end
-- ==== Proof.Blocks.lean ====
/-
  The staged blocks as rows of the gathered arrays, and a block's partial sum as a sum of edge terms.  Grid point `n`
  stages rows `16384·n … 16384·n + 16383` of both gathered arrays; row `r` of the block is padded edge
  `16384·n + r`, whose two 8-column rows hold `x` and `dx` at the rows its two (padded) index words name.  So the
  block's partial sum is the sum of the edge terms of its 16384 padded edges.
-/
import proofs.«404212_j4776003633585_4_alg».proof.Proof.Acc
import proofs.«404212_j4776003633585_4_alg».proof.Proof.HostPre

noncomputable section

open scoped BigOperators

namespace Cert.KernelIdeal.Blocks

open Idealize.ShloMosaic Idealize.ShloMosaic.TcCoe Idealize.SL.Sem Idealize.ShloMosaic.ValueIdx
open Cert.KernelIdeal Cert.KernelIdeal.Gen Cert.EdgeLoss Cert.KernelIdeal.Body Cert.KernelIdeal.Acc

variable (m : (ℓ : Loc nD τ sig) → Buf (Elt Ideal) ℓ)

/-- Both input windows' block index at a grid point: the point's own number along the rows, all eight columns. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- A row of a block is a padded edge. -/
theorem edge_lt (t : Fin cfg0.N) (r : Fin 16384) : t.val * 16384 + r.val < 24018944 := by
  have hN : cfg0.N = 1466 := N_0
  have := t.isLt; have := r.isLt; omega

/-- The first window's block at a point, entry by entry, in the first gathered array. -/
theorem iblk0_apply (c : Dev nD) (t : Fin cfg0.N) (r : Fin 16384) (k : Fin 8) :
    (iblk m c 0 t : Vec Ideal S16384x8 .f32) (ix2 r k)
      = (V m c main_v14 : S24018944x8.Idx → EReal) (ix2 (⟨t.val * 16384 + r.val, edge_lt t r⟩ : Fin 24018944) k) := by
  obtain ⟨e0, e1, -, -⟩ := in_index t
  unfold iblk
  rw [View.read_apply]
  show V m c main_v14 (((cfg0.win 0).blk t).view.emb (ix2 r k)) = V m c main_v14 _
  refine congrArg (V m c main_v14) (funext fun a => Fin.ext ?_)
  match a with
  | ⟨0, _⟩ => show win0_0.index t (0 : Fin 2) * 16384 + 1 * r.val = t.val * 16384 + r.val; rw [e0]; omega
  | ⟨1, _⟩ => show win0_0.index t (1 : Fin 2) * 8 + 1 * k.val = k.val; rw [e1]; omega

/-- The second window's block at a point, entry by entry, in the second gathered array. -/
theorem iblk1_apply (c : Dev nD) (t : Fin cfg0.N) (r : Fin 16384) (k : Fin 8) :
    (iblk m c 1 t : Vec Ideal S16384x8 .f32) (ix2 r k)
      = (V m c main_v21 : S24018944x8.Idx → EReal) (ix2 (⟨t.val * 16384 + r.val, edge_lt t r⟩ : Fin 24018944) k) := by
  obtain ⟨-, -, e0, e1⟩ := in_index t
  unfold iblk
  rw [View.read_apply]
  show V m c main_v21 (((cfg0.win 1).blk t).view.emb (ix2 r k)) = V m c main_v21 _
  refine congrArg (V m c main_v21) (funext fun a => Fin.ext ?_)
  match a with
  | ⟨0, _⟩ => show win0_1.index t (0 : Fin 2) * 16384 + 1 * r.val = t.val * 16384 + r.val; rw [e0]; omega
  | ⟨1, _⟩ => show win0_1.index t (1 : Fin 2) * 8 + 1 * k.val = k.val; rw [e1]; omega

/-- The term of padded edge `e`, from the program's four arguments. -/
def padTerm (c : Dev nD) (e : Fin 24018944) : EReal :=
  edgeTerm (m ((c : Thread nD τ).loc main_arg0)) (m ((c : Thread nD τ).loc main_arg1))
    (padWord (m ((c : Thread nD τ).loc main_arg3)) e) (padWord (m ((c : Thread nD τ).loc main_arg2)) e)

/-- A row's term in a staged block is its padded edge's term. -/
theorem rowTerm_eq (c : Dev nD) (t : Fin cfg0.N) (r : Fin 16384) :
    rowTerm (iblk m c 0 t) (iblk m c 1 t) r = padTerm m c ⟨t.val * 16384 + r.val, edge_lt t r⟩ := by
  have hdx : ∀ k : Fin 3, (iblk m c 0 t : Vec Ideal S16384x8 .f32) (ix2 r (⟨k.val, by omega⟩ : Fin 8))
      = m ((c : Thread nD τ).loc main_arg1)
          (ix2 (rowOf (padWord (m ((c : Thread nD τ).loc main_arg3)) ⟨t.val * 16384 + r.val, edge_lt t r⟩)) k) :=
    fun k => (iblk0_apply m c t r _).trans (HostPre.dst_x m c _ k)
  have hdd : ∀ k : Fin 3, (iblk m c 0 t : Vec Ideal S16384x8 .f32) (ix2 r (⟨k.val + 3, by omega⟩ : Fin 8))
      = m ((c : Thread nD τ).loc main_arg0)
          (ix2 (rowOf (padWord (m ((c : Thread nD τ).loc main_arg3)) ⟨t.val * 16384 + r.val, edge_lt t r⟩)) k) :=
    fun k => (iblk0_apply m c t r _).trans (HostPre.dst_dx m c _ k)
  have hsx : ∀ k : Fin 3, (iblk m c 1 t : Vec Ideal S16384x8 .f32) (ix2 r (⟨k.val, by omega⟩ : Fin 8))
      = m ((c : Thread nD τ).loc main_arg1)
          (ix2 (rowOf (padWord (m ((c : Thread nD τ).loc main_arg2)) ⟨t.val * 16384 + r.val, edge_lt t r⟩)) k) :=
    fun k => (iblk1_apply m c t r _).trans (HostPre.src_x m c _ k)
  have hsd : ∀ k : Fin 3, (iblk m c 1 t : Vec Ideal S16384x8 .f32) (ix2 r (⟨k.val + 3, by omega⟩ : Fin 8))
      = m ((c : Thread nD τ).loc main_arg0)
          (ix2 (rowOf (padWord (m ((c : Thread nD τ).loc main_arg2)) ⟨t.val * 16384 + r.val, edge_lt t r⟩)) k) :=
    fun k => (iblk1_apply m c t r _).trans (HostPre.src_dx m c _ k)
  unfold rowTerm padTerm edgeTerm sqDist
  refine congrArg absE (congrArg₂ (fun a b : EReal => a - b) (Finset.sum_congr rfl fun k _ => ?_)
    (Finset.sum_congr rfl fun k _ => ?_))
  · rw [hdx k, hsx k]
  · rw [hdd k, hsd k]

/-- A block's partial sum is the sum of its padded edges' terms. -/
theorem partialAt_eq (c : Dev nD) (n : Nat) (h : n < cfg0.N) :
    partialAt m c n = ∑ r : Fin 16384,
      (if h' : n * 16384 + r.val < 24018944 then padTerm m c ⟨n * 16384 + r.val, h'⟩ else 0) := by
  rw [partialAt_of_lt m c n h]
  unfold blockSum
  refine Finset.sum_congr rfl fun r _ => ?_
  rw [dif_pos (edge_lt ⟨n, h⟩ r)]
  exact rowTerm_eq m c ⟨n, h⟩ r

end Cert.KernelIdeal.Blocks

end
-- ==== Proof.Tail.lean ====
/-
  After the region.  The program takes entry `[q, 0, 0]` of each half's output tile, adds the two from a zero and
  divides by the edge count; so its result is a function of the output array alone, and the kernel's run ends with
  the result buffer at that function of the array the region leaves, the arguments unchanged.
-/
import proofs.«404212_j4776003633585_4_alg».proof.Proof.Gen.KernelIdeal.Frame
import proofs.«404212_j4776003633585_4_alg».proof.Proof.Spec
import Idealize.ShloMosaic.Lib.Pipeline.Value
import Idealize.ShloMosaic.Lib.StableHlo.Run
import Idealize.ShloMosaic.Lib.IdealHost
import Idealize.ShloMosaic.Lib.ValueIdx
import Idealize.ShloMosaic.PureOps.Ideal.Laws
import Idealize.ShloMosaic.Lib.Tactic

noncomputable section

open scoped BigOperators

namespace Cert.KernelIdeal.Tail

open Idealize.ShloMosaic Idealize.ShloMosaic.TcCoe Idealize.SL.Sem Idealize.ShloMosaic.ValueIdx
open Idealize.ShloMosaic.Pipeline (Dat)
open Cert.KernelIdeal Cert.KernelIdeal.Gen Cert.EdgeLoss

variable (m : (ℓ : Loc nD τ sig) → Buf (Elt Ideal) ℓ) (ρ : Dev nD → PrngReg)

/-- The program's result as a function of the output array: the two halves' first entries added from a zero, over
    the edge count. -/
def resultOf (A : S2x8x128.Idx → EReal) : S_.Idx → EReal := fun _ =>
  Ideal.div (0 + ∑ q : Fin 2, A (ix3 q (0 : Fin 8) (0 : Fin 128))) (Ideal.ofBits .f32 0x4BB71ACE#32)

/-- A sum over the indices of a rank-1 shape is the sum over its one coordinate. -/
theorem sum_idx1 {n : Nat} (f : (⟨1, ![n]⟩ : Shape).Idx → EReal) : ∑ i, f i = ∑ a : Fin n, f (ix1 a) := by
  let e : (⟨1, ![n]⟩ : Shape).Idx ≃ Fin n := ⟨fun i => i 0, ix1, fun i => (eq_ix1 i).symm, fun _ => rfl⟩
  exact (Equiv.sum_comp e.symm f).symm

/-- The lines after the region on any output array: slice `[0:2, 0:1, 0:1]`, reshape to `[2]`, sum from a zero, divide
    by the edge count. -/
theorem tail_value (A : S2x8x128.Idx → EReal) (hs : S2x8x128.Slices ![0, 0, 0] S2x1x1) (hc : S2x1x1.ShapeCasts S2)
    (hr : S2.ReducesTo [0] S_) (h0 : 0 < S_.numel) :
    Host.divf (F := Ideal) (φ := .f32)
      (Host.reduceAdd (fun i => shapeCast S2 (extractStridedSlice S2x1x1 ![0, 0, 0] A hs) hc i)
        (constant S_ .f32 0x00000000#32) hr h0)
      (constant S_ .f32 0x4BB71ACE#32) = resultOf A := by
  funext i
  unfold resultOf
  rw [hostDivf_apply, constant_apply, hostReduceAdd_apply, Ideal.hostReduceAdd_total hr (fun b => b.elim0), constant_apply,
    Ideal.ofBits_zero_f32, sum_idx1]
  refine congrArg (fun z => Ideal.div (0 + z) _) (Finset.sum_congr rfl fun q _ => ?_)
  -- the reshape keeps the row-major position: entry `q` of `[2]` is entry `(q, 0, 0)` of `[2, 1, 1]`
  refine (shapeCast_apply _ hc (ix1 q) (ix3 q (0 : Fin 1) (0 : Fin 1)) ?_).trans ?_
  · rw [Shape.rowMajor_val_three, Shape.rowMajor_val_one]
    show (q.val * 1 + 0) * 1 + 0 = q.val
    omega
  -- the slice starts at the origin: entry `(q, 0, 0)` of the slice is entry `(q, 0, 0)` of the array
  refine extractStridedSlice_apply _ A hs _ (ix3 q (0 : Fin 8) (0 : Fin 128)) fun a => ?_
  match a with
  | ⟨0, _⟩ => show q.val = 0 + q.val; omega
  | ⟨1, _⟩ => rfl
  | ⟨2, _⟩ => rfl

/-- The lines after the region leave the result buffer at `resultOf` of the array the region leaves. -/
theorem tail_eq (c : Dev nD) :
    (Pipeline.afterTail₀ cfgs (dats m) 0 (V0 m) [hostOps1] c main_v26 : S_.Idx → EReal)
      = resultOf ((dats m 0 c).arrAt 2 cfg0.N) := by
  unfold Pipeline.afterTail₀
  show StableHlo.after hostOps1 _ (Proc.devRef .tc main_v26) = _
  after_results
  rw [show Pipeline.withArrays (cfgs 0).spec c (V0 m c) (fun w => (dats m 0 c).arrAt w (cfgs 0).N) (Proc.devRef .tc main_v22)
      = (dats m 0 c).arrAt 2 cfg0.N from Pipeline.withArrays_arr spec0 launch0.win.arr_inj c _ _ 2]
  generalize (dats m 0 c).arrAt 2 cfg0.N = A
  exact tail_value A _ _ _ _

/-- The kernel's run, read: the result at `resultOf` of the output array after the run, the arguments unchanged. -/
theorem run : θ_run defs (onTc (τ := τ) (main (F := Ideal))) ⟨m, fun _ => 0, ρ⟩ fun r => ∀ c : Dev nD,
      r.2.mem ((c.tc : Thread nD τ).loc main_v26) = resultOf ((dats m 0 c).arrAt 2 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  -- the frame run's post, read at the result buffer and at the four arguments: none is an array of the pipeline, so
  -- each ends as the lines after the region leave it
  (θ_run defs _ _).mono (fun r h c =>
    ⟨((h c).2 main_v26 (Pipeline.mem_restRefs_of main_v26 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Tail

end
-- ==== Proof.Reindex.lean ====
/-
  The re-indexing of the padded edge sum: two halves of 733 blocks of 16384 rows, summed block by block, are all
  24018944 padded edges in order, and the padded tail contributes nothing.
-/
import proofs.«404212_j4776003633585_4_alg».proof.Proof.Spec

noncomputable section

open scoped BigOperators

namespace Cert.EdgeLoss

/-- Summing `A` consecutive stretches of length `B`, stretch by stretch, is summing the first `A * B` naturals:
    every `e < A * B` is `a * B + b` for exactly one `a < A`, `b < B`. -/
theorem sum_range_mul {M : Type*} [AddCommMonoid M] (F : ℕ → M) (A B : ℕ) :
    ∑ a ∈ Finset.range A, ∑ b ∈ Finset.range B, F (a * B + b) = ∑ e ∈ Finset.range (A * B), F e := by
  induction A with
  | zero => rw [Finset.range_zero, Finset.sum_empty, Nat.zero_mul, Finset.range_zero, Finset.sum_empty]
  | succ n ih => rw [Finset.sum_range_succ, ih, Nat.succ_mul, Finset.sum_range_add]

/-- `Q` halves of `S` blocks of `R` rows, each half summed from a zero, are the first `Q * S * R` naturals in order:
    row `r` of block `s` of half `q` is the natural `(S * q + s) * R + r`. -/
theorem sum_blocks {M : Type*} [AddCommMonoid M] (F : ℕ → M) (Q S R : ℕ) :
    ∑ q : Fin Q, (0 + ∑ s ∈ Finset.range S, ∑ r : Fin R, F ((S * q.val + s) * R + r.val))
      = ∑ e ∈ Finset.range (Q * S * R), F e := by
  calc ∑ q : Fin Q, (0 + ∑ s ∈ Finset.range S, ∑ r : Fin R, F ((S * q.val + s) * R + r.val))
      = ∑ q : Fin Q, ∑ s ∈ Finset.range S, ∑ r ∈ Finset.range R, F ((q.val * S + s) * R + r) := by
        refine Finset.sum_congr rfl fun q _ => ?_
        rw [zero_add]
        refine Finset.sum_congr rfl fun s _ => ?_
        rw [Nat.mul_comm S q.val]
        exact Fin.sum_univ_eq_sum_range (fun r => F ((q.val * S + s) * R + r)) R
    _ = ∑ q ∈ Finset.range Q, ∑ s ∈ Finset.range S, ∑ r ∈ Finset.range R, F ((q * S + s) * R + r) :=
        Fin.sum_univ_eq_sum_range (fun q => ∑ s ∈ Finset.range S, ∑ r ∈ Finset.range R, F ((q * S + s) * R + r)) Q
    _ = ∑ n ∈ Finset.range (Q * S), ∑ r ∈ Finset.range R, F (n * R + r) :=
        sum_range_mul (fun n => ∑ r ∈ Finset.range R, F (n * R + r)) Q S
    _ = ∑ e ∈ Finset.range (Q * S * R), F e := sum_range_mul F (Q * S) R

/-- A sum over the first `n + m` naturals whose last `m` terms vanish is the sum over the first `n`. -/
theorem sum_range_tail_zero {M : Type*} [AddCommMonoid M] (F : ℕ → M) (n m : ℕ)
    (h : ∀ x, x < m → F (n + x) = 0) :
    ∑ e ∈ Finset.range (n + m), F e = ∑ e ∈ Finset.range n, F e := by
  rw [Finset.sum_range_add, Finset.sum_eq_zero (fun x hx => h x (Finset.mem_range.mp hx)), add_zero]

/-- THE RE-INDEXING.  The padded edges, laid out as 2 halves of 733 blocks of 16384 rows and summed block by block
    (each half and each block from a zero), are all padded edges in order; those past the true count contribute
    nothing, so the whole is the sum over the true edges. -/
theorem blocks_sum (f : Fin 24018944 → EReal) (g : Fin 23999901 → EReal)
    (hlo : ∀ (e : Fin 24018944) (h : e.val < 23999901), f e = g ⟨e.val, h⟩)
    (hhi : ∀ e : Fin 24018944, 23999901 ≤ e.val → f e = 0) :
    (∑ q : Fin 2, (0 + ∑ s ∈ Finset.range 733, ∑ r : Fin 16384,
        (if h : (733 * q.val + s) * 16384 + r.val < 24018944 then f ⟨(733 * q.val + s) * 16384 + r.val, h⟩ else 0)))
      = ∑ e : Fin 23999901, g e := by
  -- the padded edges as a function on the naturals, zero past the padded count
  have key := sum_blocks (fun n : ℕ => if h : n < 24018944 then f ⟨n, h⟩ else (0 : EReal)) 2 733 16384
  refine key.trans ?_
  -- 2 · 733 · 16384 = 24018944 = 23999901 + 19043: the last 19043 padded edges vanish
  have e1 : 2 * 733 * 16384 = 23999901 + 19043 := by norm_num
  rw [e1, sum_range_tail_zero _ 23999901 19043 ?tail, Finset.sum_range]
  case tail =>
    intro x hx
    have hlt : 23999901 + x < 24018944 := by omega
    show (if h : 23999901 + x < 24018944 then f ⟨23999901 + x, h⟩ else (0 : EReal)) = 0
    rw [dif_pos hlt]
    exact hhi ⟨23999901 + x, hlt⟩ (Nat.le_add_right 23999901 x)
  -- below the true count the padded edge is the edge itself
  refine Finset.sum_congr rfl fun e _ => ?_
  have he : e.val < 24018944 := lt_trans e.isLt (by norm_num)
  show (if h : e.val < 24018944 then f ⟨e.val, h⟩ else (0 : EReal)) = g e
  rw [dif_pos he]
  exact hlo ⟨e.val, he⟩ e.isLt

end Cert.EdgeLoss

end
-- ==== Proof.Bridge.lean ====
/-
  The kernel's result is the loss.  The output array holds each half's total; the program adds the two totals from a
  zero and divides by the edge count.  The totals, block by block and row by row, are the terms of all 24018944
  padded edges in order; a padded edge past the true count has the word `0` at both ends, so (the tables holding real
  numbers) its term is zero, and what remains is the sum over the true edges.
-/
import proofs.«404212_j4776003633585_4_alg».proof.Proof.Out
import proofs.«404212_j4776003633585_4_alg».proof.Proof.Blocks
import proofs.«404212_j4776003633585_4_alg».proof.Proof.Tail
import proofs.«404212_j4776003633585_4_alg».proof.Proof.Reindex

noncomputable section

open scoped BigOperators

namespace Cert.KernelIdeal.Bridge

open Idealize.ShloMosaic Idealize.ShloMosaic.TcCoe Idealize.SL.Sem Idealize.ShloMosaic.ValueIdx
open Cert.KernelIdeal Cert.KernelIdeal.Gen Cert.EdgeLoss Cert.KernelIdeal.Acc Cert.KernelIdeal.Blocks

variable (m : (ℓ : Loc nD τ sig) → Buf (Elt Ideal) ℓ)

/-- Below the true edge count a padded edge's term is the edge's own. -/
theorem padTerm_lo (c : Dev nD) (e : Fin 24018944) (h : e.val < 23999901) :
    padTerm m c e = edgeTerm (m ((c : Thread nD τ).loc main_arg0)) (m ((c : Thread nD τ).loc main_arg1))
      (m ((c : Thread nD τ).loc main_arg3) (ix1 ⟨e.val, h⟩)) (m ((c : Thread nD τ).loc main_arg2) (ix1 ⟨e.val, h⟩)) := by
  unfold padTerm padWord
  rw [dif_pos h, dif_pos h]

/-- Past it both index words are `0` and the term vanishes, the tables holding real numbers. -/
theorem padTerm_hi (c : Dev nD)
    (hdx : ∀ i, ∃ r : ℝ, m ((c : Thread nD τ).loc main_arg0) i = (r : EReal))
    (hx : ∀ i, ∃ r : ℝ, m ((c : Thread nD τ).loc main_arg1) i = (r : EReal))
    (e : Fin 24018944) (h : 23999901 ≤ e.val) : padTerm m c e = 0 := by
  unfold padTerm padWord
  rw [dif_neg (by omega), dif_neg (by omega)]
  exact edgeTerm_same _ _ hx hdx 0#32

/-- THE KERNEL'S RESULT: the program's function of the output array after the run is the loss of its arguments. -/
theorem result_eq (c : Dev nD)
    (hdx : ∀ i, ∃ r : ℝ, m ((c : Thread nD τ).loc main_arg0) i = (r : EReal))
    (hx : ∀ i, ∃ r : ℝ, m ((c : Thread nD τ).loc main_arg1) i = (r : EReal)) :
    Tail.resultOf ((dats m 0 c).arrAt 2 cfg0.N)
      = fun _ => loss (m ((c : Thread nD τ).loc main_arg0)) (m ((c : Thread nD τ).loc main_arg1))
          (m ((c : Thread nD τ).loc main_arg2)) (m ((c : Thread nD τ).loc main_arg3)) := by
  rw [Out.final_out]
  funext i
  unfold Tail.resultOf loss total
  refine congrArg (fun a : EReal => Ideal.div a (Ideal.ofBits .f32 0x4BB71ACE#32)) ?_
  rw [zero_add]
  rw [← blocks_sum (padTerm m c) _ (fun e h => padTerm_lo m c e h) (fun e h => padTerm_hi m c hdx hx e h)]
  refine Finset.sum_congr rfl fun q _ => ?_
  show Out.halfSum m c q.val = _
  unfold Out.halfSum
  refine congrArg (fun a : EReal => 0 + a) (Finset.sum_congr rfl fun s hs => ?_)
  have hs' : s < 733 := Finset.mem_range.mp hs
  have hN : cfg0.N = 1466 := N_0
  exact partialAt_eq m c (733 * q.val + s) (by have := q.isLt; omega)

end Cert.KernelIdeal.Bridge

end
-- ==== Proof.RefValue.lean ====
/-
  The reference program's result is the loss: it takes the rows of `x` and of `dx` at the wrapped, clamped edge
  indices, forms every edge's term, sums the terms from a zero and divides by the edge count.
-/
import proofs.«404212_j4776003633585_4_alg».proof.Proof.Gen.ReferenceIdeal.Read
import proofs.«404212_j4776003633585_4_alg».proof.Proof.Spec
import proofs.«404212_j4776003633585_4_alg».proof.Proof.LibTakeRows
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.EdgeLoss

/-- The program's row-take record is the dimension numbers of a row take of a `[2000000, 3]` table at
    `23999901` start indices. -/
theorem dims_eq :
    gather_S2000000x3_S23999901x1_S23999901x3_1_0_n_n_0_1_13
      = Cert.LibTakeRows.rowDims 2000000 3 23999901 gather_S2000000x3_S23999901x1_S23999901x3_1_0_n_n_0_1_13_wf := rfl

/-- The program's row take at `(e, k)`: column `k` of the row the start index `idx[e, 0]` names. -/
theorem take_apply (t : S2000000x3.Idx → EReal) (idx : IVec S23999901x1 32) (e : Fin 23999901) (k : Fin 3)
    (w : BitVec 32) (hw : idx (ix2 e (0 : Fin 1)) = w) :
    Host.gather gather_S2000000x3_S23999901x1_S23999901x3_1_0_n_n_0_1_13 t idx (ix2 e k)
      = t (ix2 (⟨min w.toInt.toNat (2000000 - 1), by omega⟩ : Fin 2000000) k) := by
  subst hw
  rw [dims_eq]
  exact Cert.LibTakeRows.gather_rows_apply (by decide) _ t idx e k

/-- The column index `(e, 0)` of the start indices reads the index vector at `e`. -/
theorem col_idx (e : Fin 23999901) : idx_main_v9 (ix2 e (0 : Fin 1)) = ix1 e := by
  funext d; match d with | ⟨0, _⟩ => rfl

/-- The table `x` times the broadcast float one is `x`. -/
theorem v1_apply (x1 : (⟨S2000000x3, .f32⟩ : BufTy).Contents (Elt Ideal)) (j : S2000000x3.Idx) :
    val_main_v1 (F := Ideal) x1 j = x1 j := by
  rw [val_main_v1_apply, val_main_v0_apply, val_main_cst_apply, Ideal.ofBits_def, Ideal.ofBits_one_f32,
    Ideal.mulf_def, mul_one]

/-- The table `dx` times the broadcast float one is `dx`. -/
theorem v3_apply (x0 : (⟨S2000000x3, .f32⟩ : BufTy).Contents (Elt Ideal)) (j : S2000000x3.Idx) :
    val_main_v3 (F := Ideal) x0 j = x0 j := by
  rw [val_main_v3_apply, val_main_v2_apply, val_main_cst_0_apply, Ideal.ofBits_def, Ideal.ofBits_one_f32,
    Ideal.mulf_def, mul_one]

/-- The destination word of edge `e`, wrapped: the start index of the first take of `x`. -/
theorem v9_apply (x3 : (⟨S23999901, .i32⟩ : BufTy).Contents (Elt Ideal)) (e : Fin 23999901) :
    val_main_v9 (F := Ideal) x3 (ix2 e (0 : Fin 1))
      = Scalar.select (IntOp.cmpi .slt (x3 (ix1 e)) 0#32) (IntOp.addi (x3 (ix1 e)) 2000000#32) (x3 (ix1 e)) := by
  rw [val_main_v9_apply, col_idx, val_main_v8_apply, val_main_v5_apply, val_main_v7_apply, val_main_v4_apply,
    val_main_v6_apply, val_main_c_apply, val_main_c_1_apply]

/-- The source word of edge `e`, wrapped: the start index of the second take of `x`. -/
theorem v16_apply (x2 : (⟨S23999901, .i32⟩ : BufTy).Contents (Elt Ideal)) (e : Fin 23999901) :
    val_main_v16 (F := Ideal) x2 (ix2 e (0 : Fin 1))
      = Scalar.select (IntOp.cmpi .slt (x2 (ix1 e)) 0#32) (IntOp.addi (x2 (ix1 e)) 2000000#32) (x2 (ix1 e)) := by
  rw [val_main_v16_apply, show idx_main_v16 (ix2 e (0 : Fin 1)) = ix1 e from col_idx e, val_main_v15_apply, val_main_v12_apply, val_main_v14_apply, val_main_v11_apply,
    val_main_v13_apply, val_main_c_2_apply, val_main_c_3_apply]

/-- The destination word of edge `e`, wrapped: the start index of the first take of `dx`. -/
theorem v24_apply (x3 : (⟨S23999901, .i32⟩ : BufTy).Contents (Elt Ideal)) (e : Fin 23999901) :
    val_main_v24 (F := Ideal) x3 (ix2 e (0 : Fin 1))
      = Scalar.select (IntOp.cmpi .slt (x3 (ix1 e)) 0#32) (IntOp.addi (x3 (ix1 e)) 2000000#32) (x3 (ix1 e)) := by
  rw [val_main_v24_apply, show idx_main_v24 (ix2 e (0 : Fin 1)) = ix1 e from col_idx e, val_main_v23_apply, val_main_v20_apply, val_main_v22_apply, val_main_v19_apply,
    val_main_v21_apply, val_main_c_4_apply, val_main_c_5_apply]

/-- The source word of edge `e`, wrapped: the start index of the second take of `dx`. -/
theorem v31_apply (x2 : (⟨S23999901, .i32⟩ : BufTy).Contents (Elt Ideal)) (e : Fin 23999901) :
    val_main_v31 (F := Ideal) x2 (ix2 e (0 : Fin 1))
      = Scalar.select (IntOp.cmpi .slt (x2 (ix1 e)) 0#32) (IntOp.addi (x2 (ix1 e)) 2000000#32) (x2 (ix1 e)) := by
  rw [val_main_v31_apply, show idx_main_v31 (ix2 e (0 : Fin 1)) = ix1 e from col_idx e, val_main_v30_apply, val_main_v27_apply, val_main_v29_apply, val_main_v26_apply,
    val_main_v28_apply, val_main_c_6_apply, val_main_c_7_apply]

/-- The first take of `x` at `(e, k)`: column `k` of the destination row of edge `e`. -/
theorem v10_apply (x1 : (⟨S2000000x3, .f32⟩ : BufTy).Contents (Elt Ideal))
    (x3 : (⟨S23999901, .i32⟩ : BufTy).Contents (Elt Ideal)) (e : Fin 23999901) (k : Fin 3) :
    val_main_v10 (F := Ideal) x1 x3 (ix2 e k) = x1 (ix2 (rowOf (x3 (ix1 e))) k) := by
  unfold val_main_v10
  rw [take_apply _ _ e k _ (v9_apply x3 e), v1_apply]
  rfl

/-- The second take of `x` at `(e, k)`: column `k` of the source row of edge `e`. -/
theorem v17_apply (x1 : (⟨S2000000x3, .f32⟩ : BufTy).Contents (Elt Ideal))
    (x2 : (⟨S23999901, .i32⟩ : BufTy).Contents (Elt Ideal)) (e : Fin 23999901) (k : Fin 3) :
    val_main_v17 (F := Ideal) x1 x2 (ix2 e k) = x1 (ix2 (rowOf (x2 (ix1 e))) k) := by
  unfold val_main_v17
  rw [take_apply _ _ e k _ (v16_apply x2 e), v1_apply]
  rfl

/-- The first take of `dx` at `(e, k)`: column `k` of the destination row of edge `e`. -/
theorem v25_apply (x0 : (⟨S2000000x3, .f32⟩ : BufTy).Contents (Elt Ideal))
    (x3 : (⟨S23999901, .i32⟩ : BufTy).Contents (Elt Ideal)) (e : Fin 23999901) (k : Fin 3) :
    val_main_v25 (F := Ideal) x0 x3 (ix2 e k) = x0 (ix2 (rowOf (x3 (ix1 e))) k) := by
  unfold val_main_v25
  rw [take_apply _ _ e k _ (v24_apply x3 e), v3_apply]
  rfl

/-- The second take of `dx` at `(e, k)`: column `k` of the source row of edge `e`. -/
theorem v32_apply (x0 : (⟨S2000000x3, .f32⟩ : BufTy).Contents (Elt Ideal))
    (x2 : (⟨S23999901, .i32⟩ : BufTy).Contents (Elt Ideal)) (e : Fin 23999901) (k : Fin 3) :
    val_main_v32 (F := Ideal) x0 x2 (ix2 e k) = x0 (ix2 (rowOf (x2 (ix1 e))) k) := by
  unfold val_main_v32
  rw [take_apply _ _ e k _ (v31_apply x2 e), v3_apply]
  rfl

/-- The row index `(e, k)` of a row sum's operand. -/
theorem row_idx (e : Fin 23999901) (k : Fin 3) : idx_main_v35 (ix1 e) k = ix2 e k := by
  funext d; match d with | ⟨0, _⟩ => rfl | ⟨1, _⟩ => rfl

/-- The row sum of the squared differences of `x` at edge `e` is the squared distance of its two rows. -/
theorem v35_apply (x1 : (⟨S2000000x3, .f32⟩ : BufTy).Contents (Elt Ideal))
    (x2 x3 : (⟨S23999901, .i32⟩ : BufTy).Contents (Elt Ideal)) (e : Fin 23999901) :
    val_main_v35 (F := Ideal) x1 x2 x3 (ix1 e) = sqDist x1 (rowOf (x3 (ix1 e))) (rowOf (x2 (ix1 e))) := by
  rw [val_main_v35_apply, val_main_cst_8_apply, Ideal.ofBits_def, Ideal.ofBits_zero_f32, zero_add]
  unfold sqDist
  refine Finset.sum_congr rfl fun k _ => ?_
  rw [row_idx, val_main_v34_apply, val_main_v18_apply, v10_apply, v17_apply, Ideal.mulf_def, Ideal.subf_def]

/-- The row sum of the squared differences of `dx` at edge `e` is the squared distance of its two rows. -/
theorem v37_apply (x0 : (⟨S2000000x3, .f32⟩ : BufTy).Contents (Elt Ideal))
    (x2 x3 : (⟨S23999901, .i32⟩ : BufTy).Contents (Elt Ideal)) (e : Fin 23999901) :
    val_main_v37 (F := Ideal) x0 x2 x3 (ix1 e) = sqDist x0 (rowOf (x3 (ix1 e))) (rowOf (x2 (ix1 e))) := by
  rw [val_main_v37_apply, val_main_cst_9_apply, Ideal.ofBits_def, Ideal.ofBits_zero_f32, zero_add]
  unfold sqDist
  refine Finset.sum_congr rfl fun k _ => ?_
  rw [show idx_main_v37 (ix1 e) k = ix2 e k from row_idx e k, val_main_v36_apply, val_main_v33_apply, v25_apply,
    v32_apply, Ideal.mulf_def, Ideal.subf_def]

/-- The absolute difference stage at edge `e` is the edge's term. -/
theorem v39_apply (x0 x1 : (⟨S2000000x3, .f32⟩ : BufTy).Contents (Elt Ideal))
    (x2 x3 : (⟨S23999901, .i32⟩ : BufTy).Contents (Elt Ideal)) (e : Fin 23999901) :
    val_main_v39 (F := Ideal) x0 x1 x2 x3 (ix1 e) = edgeTerm x0 x1 (x3 (ix1 e)) (x2 (ix1 e)) := by
  rw [val_main_v39_apply, val_main_v38_apply, v35_apply, v37_apply, Ideal.hostAbsf_def, Ideal.absf_def,
    Ideal.subf_def]
  rfl

/-- A vector's indices are its coordinate range. -/
def edgeEquiv : Fin 23999901 ≃ S23999901.Idx where
  toFun := ix1
  invFun j := j 0
  left_inv _ := rfl
  right_inv j := (eq_ix1 j).symm

/-- The reference's last stage, at its one index, is the loss of its four arguments
    (`x0` = `dx`, `x1` = `x`, `x2` = the source indices, `x3` = the destination indices). -/
theorem result_eq (x0 x1 : (⟨S2000000x3, .f32⟩ : BufTy).Contents (Elt Ideal))
    (x2 x3 : (⟨S23999901, .i32⟩ : BufTy).Contents (Elt Ideal)) (i : S_.Idx) :
    val_main_v41 (F := Ideal) x0 x1 x2 x3 i = loss x0 x1 x2 x3 := by
  rw [val_main_v41_apply, val_main_v40_apply, val_main_cst_10_apply, val_main_cst_11_apply, Ideal.hostDivf_def,
    Ideal.ofBits_def, Ideal.ofBits_def, Ideal.ofBits_zero_f32, zero_add]
  unfold loss total
  have hsum : (∑ j : S23999901.Idx, val_main_v39 (F := Ideal) x0 x1 x2 x3 j)
      = ∑ e : Fin 23999901, edgeTerm x0 x1 (x3 (ix1 e)) (x2 (ix1 e)) := by
    rw [← Equiv.sum_comp edgeEquiv]
    exact Finset.sum_congr rfl fun e _ => v39_apply x0 x1 x2 x3 e
  rw [hsum]

end Cert.ReferenceIdeal.RefValue

end
-- ==== Proof.Finite.lean ====
/-
  From the precondition to real entries: when `finite_inputs` of the four arguments is all ones, every entry of the
  two float tables is a real number (neither infinity).
-/
import proofs.«404212_j4776003633585_4_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.IdealHost

noncomputable section

namespace Cert.EdgeLoss

open Idealize.ShloMosaic Idealize.ShloMosaic.ValueIdx

instance : Subsingleton Cert.Pre_finite_inputs.S_.Idx := ⟨fun a b => funext fun d => d.elim0⟩

/-- The word `0x7F800000` is plus infinity. -/
theorem ofBits_inf_f32 : Ideal.ofBits .f32 0x7F800000#32 = (⊤ : EReal) := by
  simp [Ideal.ofBits, Ideal.ieee]

/-- An extended real whose absolute value is below plus infinity is a real number: at `⊥` and at `⊤` the absolute
    value `max x (-x)` is `⊤`, which is not below itself. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

/-- One `jnp.all(|a| < inf)` that came out 1 says every entry of `a` is a real number. -/
theorem real_of_all [Cert.Pre_finite_inputs.Facts] (a : FVec Ideal Cert.Pre_finite_inputs.S2000000x3 .f32)
    (e : Host.reduce IntOp.andi
        (cmpf .olt (Host.absf a)
          (broadcastInDim Cert.Pre_finite_inputs.S2000000x3 ![] Cert.Pre_finite_inputs.Facts.bcast_S_S2000000x3
            (constant Cert.Pre_finite_inputs.S_ .f32 0x7F800000#32)))
        (constantI Cert.Pre_finite_inputs.S_ 1 1#1)
        Cert.Pre_finite_inputs.Facts.reducesTo_S2000000x3_S_d0_1 Cert.Pre_finite_inputs.Facts.h_S_ ix0 = 1#1) :
    ∀ i, ∃ r : ℝ, a i = (r : EReal) := by
  intro i
  have hi := Host.reduce_andi_all _ _ _ _ ix0 e i
  rw [cmpf_apply, broadcastInDim_scalar_apply] at hi
  exact real_of_abs_lt_inf (a i) hi

/-- Both float tables hold real numbers when the precondition's function returns all ones. -/
theorem real_of_pre [Cert.Pre_finite_inputs.Facts]
    (a0 a1 : FVec Ideal Cert.Pre_finite_inputs.S2000000x3 .f32)
    (a2 a3 : IVec Cert.Pre_finite_inputs.S23999901 32)
    (h : Cert.Pre_finite_inputs.fn (F := Ideal) a0 a1 a2 a3 = fun _ => 1#1) :
    (∀ i, ∃ r : ℝ, a0 i = (r : EReal)) ∧ (∀ i, ∃ r : ℝ, a1 i = (r : EReal)) := by
  have h0 := congrFun h ix0
  dsimp only [Cert.Pre_finite_inputs.fn] at h0
  obtain ⟨e0, e1⟩ := IntOp.andi_eq_one.1 h0
  exact ⟨real_of_all a0 e0, real_of_all a1 e1⟩

end Cert.EdgeLoss

end
-- ==== Proof.lean ====
/-
  The certificate's claim: the edge-loss kernel against its jnp reference, over the extended reals.

  The kernel pads the two edge-index vectors with the index `0` to a whole number of blocks, gathers 8-column rows
  `[x | dx | 0 0]` of one vertex table at both ends of every padded edge, and a 2 × 733 grid of 16384-row blocks adds
  each block's `Σ_rows |Σₖ (x_d − x_s)² − Σₖ (dx_d − dx_s)²|` into an accumulator that is reset at a half's first block
  and copied out at its last; the two halves are added and divided by the edge count.  The reference takes the same
  rows of `x` and `dx` separately and averages the same term over the true edges.  Both are `Cert.EdgeLoss.loss`:
  addition on the extended reals is commutative and associative, so the blocked sum is the plain sum over the padded
  edges, and a padded edge has both ends at row `0`, whose difference is zero because the precondition makes every
  table entry a real number.  The three frames are the generated ones (the reference's from its generated run).
-/
import proofs.«404212_j4776003633585_4_alg».proof.Defs
import proofs.«404212_j4776003633585_4_alg».proof.Proof.Gen.Kernel
import proofs.«404212_j4776003633585_4_alg».proof.Proof.Gen.Kernel.Skeleton
import proofs.«404212_j4776003633585_4_alg».proof.Proof.Gen.Kernel.Launch
import proofs.«404212_j4776003633585_4_alg».proof.Proof.Gen.Kernel.Points
import proofs.«404212_j4776003633585_4_alg».proof.Proof.Gen.Kernel.Frame
import proofs.«404212_j4776003633585_4_alg».proof.Proof.Gen.KernelIdeal
import proofs.«404212_j4776003633585_4_alg».proof.Proof.Gen.KernelIdeal.Skeleton
import proofs.«404212_j4776003633585_4_alg».proof.Proof.Gen.KernelIdeal.Launch
import proofs.«404212_j4776003633585_4_alg».proof.Proof.Gen.KernelIdeal.Points
import proofs.«404212_j4776003633585_4_alg».proof.Proof.Gen.KernelIdeal.Frame
import proofs.«404212_j4776003633585_4_alg».proof.Proof.Gen.ReferenceIdeal
import proofs.«404212_j4776003633585_4_alg».proof.Proof.Gen.Pre_finite_inputs
import proofs.«404212_j4776003633585_4_alg».proof.Proof.Gen.ReferenceIdeal.Run
import proofs.«404212_j4776003633585_4_alg».proof.Proof.Gen.ReferenceIdeal.Read
import proofs.«404212_j4776003633585_4_alg».proof.Proof.Bridge
import proofs.«404212_j4776003633585_4_alg».proof.Proof.RefValue
import proofs.«404212_j4776003633585_4_alg».proof.Proof.Finite
import Idealize.ShloMosaic.Adequacy
import Idealize.ShloMosaic.Init

noncomputable section

namespace Cert.Proof

open Idealize.ShloMosaic Idealize.SL.Sem Cert.EdgeLoss

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end at the loss of the (agreeing) arguments: the kernel by the blocked sum over the padded edges
    (the precondition making the padded edges' terms vanish), the reference by its own straight-line sum. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Tail.run m ρ)
    have hfin := real_of_pre _ _ _ _ (hpre c)
    exact Cert.KernelIdeal.Bridge.result_eq m c hfin.1 hfin.2
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v41_eq]
    funext i
    rw [Cert.ReferenceIdeal.RefValue.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
